-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S64x40 .f32) (main_arg9 : FVec F S40 .f32) (main_arg10 : FVec F S64x40 .f32) (main_v33 : IVec S_ 1) : IVec S_ 1 :=
  let main_v34 : FVec F S64x40 .f32 := Host.absf main_arg8
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_v44 : FVec F S64x40 .f32 := Host.absf main_arg10
  let main_cst_16 : FVec F S_ .f32 := constant S_ .f32 0x7F800000#32
  let main_v45 : FVec F S64x40 .f32 := broadcastInDim S64x40 ![] bcast_S_S64x40 main_cst_16
  let main_v46 : IVec S64x40 1 := cmpf .olt main_v44 main_v45
  let main_c_17 : IVec S_ 1 := constantI S_ 1 1#1
  let main_v47 : IVec S_ 1 := (fun x v => Host.reduce IntOp.andi x v reducesTo_S64x40_S_d0_1 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64x40 .f32) (main_arg9 : FVec F S40 .f32) (main_arg10 : FVec F S64x40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x40 .f32) (main_arg9 : FVec F S40 .f32) (main_arg10 : FVec F S64x40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 80
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x40, .f32⟩
  | .hbm, ⟨9, _⟩ => ⟨S40, .f32⟩
  | .hbm, ⟨10, _⟩ => ⟨S64x40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S1x40, .f32⟩
  | .hbm, ⟨79, _⟩ => ⟨S100000x40, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x40, .f32⟩
  | .local _ .vmem, ⟨23, _⟩ => ⟨S1x40, .f32⟩
  | .local _ .vmem, ⟨24, _⟩ => ⟨S64x40, .f32⟩
  | .local _ .vmem, ⟨25, _⟩ => ⟨S5000x40, .f32⟩
  | .local _ .vmem, ⟨26, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x40.size a ≤ S64x40.size a
  hwx2_2 : ∀ i : grid2.Coords, EltTy.bits .f32 = 32 ∨ (Rect.block (s := S64x40) S64x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x40.size a ≤ S64x40.size a
  hwx2_4 : ∀ i : grid2.Coords, EltTy.bits .f32 = 32 ∨ (Rect.block (s := S64x40) S64x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S100000x40.size a
  hwx2_5 : ∀ i : grid2.Coords, EltTy.bits .f32 = 32 ∨ (Rect.block (s := S100000x40) S5000x40.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v23) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x40 : Shape := ⟨2, ![100000, 40]⟩
abbrev S1x40 : Shape := ⟨2, ![1, 40]⟩

abbrev nBuf : Space → Nat
  | .hbm => 132
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64x64, .f32⟩
  | 6 => ⟨S64, .f32⟩
  | 7 => ⟨S64x64, .f32⟩
  | 8 => ⟨S64x40, .f32⟩
  | 9 => ⟨S40, .f32⟩
  | 10 => ⟨S64x40, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S_, .f32⟩
  | 35 => ⟨S_, .f32⟩
  | 36 => ⟨S100000, .f32⟩
  | 37 => ⟨S100000, .f32⟩
  | 38 => ⟨S100000x1, .f32⟩
  | 39 => ⟨S100000x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S100000x64, .f32⟩
  | 46 => ⟨S100000x64, .f32⟩
  | 47 => ⟨S_, .f32⟩
  | 48 => ⟨S100000x64, .f32⟩
  | 49 => ⟨S100000x64, .f32⟩
  | 50 => ⟨S_, .f32⟩
  | 51 => ⟨S1600000, .f32⟩
  | 52 => ⟨S_, .f32⟩
  | 53 => ⟨S100000, .f32⟩
  | 54 => ⟨S1600000x1, .i32⟩
  | 55 => ⟨S100000, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S_, .f32⟩
  | 66 => ⟨S100000x64, .f32⟩
  | 67 => ⟨S1600000x1, .i32⟩
  | 68 => ⟨S100000x64, .f32⟩
  | 69 => ⟨S_, .f32⟩
  | 70 => ⟨S_, .f32⟩
  | 71 => ⟨S100000, .f32⟩
  | 72 => ⟨S100000, .f32⟩
  | 73 => ⟨S100000x1, .f32⟩
  | 74 => ⟨S100000x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S_, .f32⟩
  | 86 => ⟨S1600000, .f32⟩
  | 87 => ⟨S_, .f32⟩
  | 88 => ⟨S100000, .f32⟩
  | 89 => ⟨S1600000x1, .i32⟩
  | 90 => ⟨S100000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S_, .f32⟩
  | 101 => ⟨S100000x64, .f32⟩
  | 102 => ⟨S1600000x1, .i32⟩
  | 103 => ⟨S100000x64, .f32⟩
  | 104 => ⟨S_, .f32⟩
  | 105 => ⟨S_, .f32⟩
  | 106 => ⟨S100000, .f32⟩
  | 107 => ⟨S100000, .f32⟩
  | 108 => ⟨S100000x1, .f32⟩
  | 109 => ⟨S100000x64, .f32⟩
  | 110 => ⟨S100000x64, .f32⟩
  | 111 => ⟨S100000x40, .f32⟩
  | 112 => ⟨S1x40, .f32⟩
  | 113 => ⟨S100000x40, .f32⟩
  | 114 => ⟨S100000x40, .f32⟩
  | 115 => ⟨S100000x40, .f32⟩
  | 116 => ⟨S100000x40, .f32⟩
  | 117 => ⟨S_, .f32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x40, .f32⟩
  | 124 => ⟨S100000x40, .f32⟩
  | 125 => ⟨S100000x40, .f32⟩
  | 126 => ⟨S_, .f32⟩
  | 127 => ⟨S100000, .f32⟩
  | _ => ⟨S100000x64, .f32⟩

abbrev hbmTy0_1 (i : Nat) : BufTy := match i % 128 with
  | 0 => ⟨S100000x1, .f32⟩
  | 1 => ⟨S100000x1, .f32⟩
  | 2 => ⟨S100000x40, .f32⟩
  | 3 => ⟨S100000x40, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call1_cst : Ref sig .tc := ⟨.hbm, 47, rfl⟩
abbrev main_call1_v0 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_call2_v0 : Ref sig .tc := ⟨.hbm, 70, rfl⟩
abbrev main_call2_v1 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call3_cst : Ref sig .tc := ⟨.hbm, 82, rfl⟩
abbrev main_call3_v0 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_cst_11 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_12 : Ref sig .tc := ⟨.hbm, 91, rfl⟩
abbrev main_v58 : Ref sig .tc := ⟨.hbm, 92, rfl⟩
abbrev main_v59 : Ref sig .tc := ⟨.hbm, 93, rfl⟩
abbrev main_c_13 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_call4_v0 : Ref sig .tc := ⟨.hbm, 105, rfl⟩
abbrev main_call4_v1 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_call5_cst : Ref sig .tc := ⟨.hbm, 117, rfl⟩
abbrev main_call5_v0 : Ref sig .tc := ⟨.hbm, 118, rfl⟩
abbrev main_call5_cst_0 : Ref sig .tc := ⟨.hbm, 119, rfl⟩
abbrev main_call5_v1 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_call5_v5 : Ref sig .tc := ⟨.hbm, 124, rfl⟩
abbrev main_call5_v6 : Ref sig .tc := ⟨.hbm, 125, rfl⟩
abbrev main_call5_cst_1 : Ref sig .tc := ⟨.hbm, 126, rfl⟩
abbrev main_call5_v7 : Ref sig .tc := ⟨.hbm, 127, rfl⟩
abbrev main_call5_v8 : Ref sig .tc := ⟨.hbm, 128, rfl⟩
abbrev main_call5_v9 : Ref sig .tc := ⟨.hbm, 129, rfl⟩
abbrev main_call5_v10 : Ref sig .tc := ⟨.hbm, 130, rfl⟩
abbrev main_v78 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.SageLayer.lean ====
/-
  One GraphSAGE layer with mean aggregation, as functions of whole arrays over the extended reals.

  A layer takes the aggregated neighbour features `a` (one row per node: the sum of the neighbours' rows divided by
  the node's degree, clipped below at one), the node features `h`, two weight matrices and a bias, and returns, at node
  `r` and output column `q`,
      (Σ_k a[r,k]·Wl[k,q] + b[q]) + Σ_k h[r,k]·Wr[k,q]
  followed by its activation: the positive part for the first two layers, the row-wise log-softmax for the last.
  The row-wise log-softmax of a row `z` subtracts the row's maximum and then the logarithm of the sum of the
  exponentials of the shifted row.

  The mean itself is written in two ways by the two programs: the sum times the reciprocal of the clipped degree, and
  the sum divided by the clipped degree. On the extended reals these agree whenever the divisor is not zero (the
  quotient is the product with the inverse there), and a maximum with one is never zero.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- Node `r`, output column `q` of a layer before its activation: the aggregated row against `wl`, plus the bias,
    plus the node's own row against `wr`. -/
def lin {d : Nat} (a h : (⟨2, ![100000, 64]⟩ : Shape).Idx → EReal) (wl wr : (⟨2, ![64, d]⟩ : Shape).Idx → EReal)
    (b : Fin d → EReal) (r : Fin 100000) (q : Fin d) : EReal :=
  ((∑ k : Fin 64, a (ix2 r k) * wl (ix2 k q)) + b q) + ∑ k : Fin 64, h (ix2 r k) * wr (ix2 k q)

/-- A hidden layer: the positive part of `lin`. -/
def reluLayer (a h : (⟨2, ![100000, 64]⟩ : Shape).Idx → EReal) (wl wr : (⟨2, ![64, 64]⟩ : Shape).Idx → EReal)
    (b : Fin 64 → EReal) : (⟨2, ![100000, 64]⟩ : Shape).Idx → EReal :=
  fun i => max (lin a h wl wr b (i 0) (i 1)) 0

/-- The value both programs start a row's maximum from (the f32 pattern of minus infinity, kept as its word). -/
def negInf : EReal := Ideal.ofBits .f32 0xFF800000#32

/-- A row less its maximum (the maximum folded from `negInf`, and once more taken against it, as both programs do). -/
def shift (z : Fin 40 → EReal) (q : Fin 40) : EReal :=
  z q - max negInf ((Finset.univ : Finset (Fin 40)).fold max negInf z)

/-- The log-softmax of a row: the shifted row less the logarithm of the sum of its exponentials. -/
def logSoftmaxRow (z : Fin 40 → EReal) (q : Fin 40) : EReal :=
  shift z q - Ideal.log (∑ j : Fin 40, Ideal.exp (shift z j))

/-- The output layer: the row-wise log-softmax of `lin`. -/
def logSoftmaxLayer (a h : (⟨2, ![100000, 64]⟩ : Shape).Idx → EReal) (wl wr : (⟨2, ![64, 40]⟩ : Shape).Idx → EReal)
    (b : Fin 40 → EReal) : (⟨2, ![100000, 40]⟩ : Shape).Idx → EReal :=
  fun i => logSoftmaxRow (lin a h wl wr b (i 0)) (i 1)

/-- The product with the reciprocal is the quotient, off a zero divisor. -/
theorem mul_div_one (s d : EReal) (hd : d ≠ 0) : s * Ideal.div 1 d = Ideal.div s d := by
  unfold Ideal.div
  rw [if_neg hd, if_neg hd, one_mul]

/-- A degree clipped below at one is not zero. -/
theorem max_one_ne_zero (x : EReal) : max (1 : EReal) x ≠ 0 :=
  ne_of_gt (lt_of_lt_of_le zero_lt_one (le_max_left _ _))

/-- The f32 pattern of one denotes one. -/
theorem ofBits_one : Ideal.ofBits .f32 0x3F800000#32 = 1 := by
  simp [Ideal.ofBits, Ideal.ieee, -EReal.coe_mul]
  norm_num

end Cert.Sage

end
-- ==== Proof.KRegion0Pay.lean ====
/-
  The arithmetic of region 0's body at one entry of its block.

  The body takes a block of aggregated rows `a`, the block of the nodes' own rows `h` (5000 rows of 64 features each),
  the two 64 × 64 weight matrices and the bias row, and leaves at row `p`, column `q`
      max ((Σ_k a[p,k]·Wl[k,q] + b[q]) + Σ_k h[p,k]·Wr[k,q]) 0.
  The two block products are sums over the one contracted axis (the columns of the left factor against the rows of the
  right one); the format changes in front of them do nothing over the extended reals; the bias row is repeated down the
  rows; the zero the maximum is taken against is the zero word.
-/
import proofs.«102613_j79714593014136_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.ValueIdx

/-! ## The block product's operand indices -/

/-- The left factor is read at the output's row … -/
theorem lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the contracted column; -/
theorem lhs_col (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
/-- the right factor at the contracted row … -/
theorem rhs_row (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
/-- … and the output's column. -/
theorem rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block product into the zero block, at row `p` and column `q`: the sum over the 64 contracted positions. -/
theorem product_apply {φ₁ φ₂ : FTy} (l : FVec Ideal S5000x64 φ₁) (r : FVec Ideal S64x64 φ₂) (p : Fin 5000) (q : Fin 64) :
    FloatOps.matmul dot_S5000x64_S64x64_S5000x64_1_0_0_1_n_n none l r (constant (F := Ideal) S5000x64 .f32 0x00000000#32) (ix2 p q)
      = ∑ k : Fin 64, l (ix2 p k) * r (ix2 k q) := by
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The bias row repeated down the 5000 rows reads its column. -/
theorem bias_apply (b : Vec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The body's stored value at row `p`, column `q` of its block, from the five blocks it loads. -/
theorem pay_apply (a h : Vec Ideal S5000x64 .f32) (wl wr : Vec Ideal S64x64 .f32) (b : Vec Ideal S1x64 .f32)
    (p : Fin 5000) (q : Fin 64) :
    k0_pay1 (F := Ideal) a h wl wr b (ix2 p q)
      = max (((∑ k : Fin 64, a (ix2 p k) * wl (ix2 k q)) + b (ix2 (0 : Fin 1) q)) + ∑ k : Fin 64, h (ix2 p k) * wr (ix2 k q)) 0 := by
  unfold k0_pay1
  rw [shapeCast_self, shapeCast_self, maximumf_apply, addf_apply, addf_apply, broadcast_apply, bias_apply]
  simp only [matmul]
  rw [product_apply, product_apply]
  simp only [truncf_apply]
  exact congrArg (max _) Ideal.ofBits_zero_f32

end Cert.KernelIdeal.Region0

end
-- ==== Proof.KRegion0.lean ====
/-
  Region 0 of the program: what its output array holds after the run, as one function of the arrays the region finds.

  The region's grid has 20 points. Point `t` is handed rows `5000·t … 5000·t + 4999` of the aggregated rows and of the
  nodes' own rows, the two weight matrices and the bias row whole, and writes back rows `5000·t … 5000·t + 4999` of
  the output. An entry of the output at row `r` therefore depends on row `r` of the two row arrays only, and is the
  layer's value there; row `r` is written by point `r / 5000`, so the twenty blocks fill the array.
-/
import proofs.«102613_j79714593014136_1_alg».proof.Proof.Gen.KernelIdeal.Frame
import proofs.«102613_j79714593014136_1_alg».proof.Proof.SageLayer
import proofs.«102613_j79714593014136_1_alg».proof.Proof.KRegion0Pay
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The origin, coordinate by coordinate. -/
theorem hz : (![0, 0] : Fin 2 → Nat) = fun _ => 0 := funext fun a => by fin_cases a <;> rfl

/-- Where each window's block sits at point `t`: the three row windows at block row `t`, the whole-array windows at the
    origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer at row `r`, column `q`, written out. -/
theorem layer_apply (A H : (⟨2, ![100000, 64]⟩ : Shape).Idx → EReal) (Wl Wr : (⟨2, ![64, 64]⟩ : Shape).Idx → EReal)
    (B : Fin 64 → EReal) (r : Fin 100000) (q : Fin 64) :
    Cert.Sage.reluLayer A H Wl Wr B (ix2 r q)
      = max (((∑ k : Fin 64, A (ix2 r k) * Wl (ix2 k q)) + B q) + ∑ k : Fin 64, H (ix2 r k) * Wr (ix2 k q)) 0 := rfl

/-- What point `t` writes back is block `t` of the layer of the arrays the region finds: at row `p`, column `q` of the
    block the body's value reads rows `5000·t + p` of the two row arrays, column `q` of the two weight matrices and of
    the bias row, which is the layer's entry at row `5000·t + p`, column `q`. -/
theorem flushed_eq (V : (c : Dev nD) → (b : Ref sig .tc) → Buf (Elt Ideal) ((c : Thread nD τ).loc b)) (c : Dev nD) (t : Fin cfg0.N) :
    (dat0 (F := Ideal) V c).flushed 5 t
      = ((cfg0.win 5).blk t).view.read (Elt Ideal)
          (Cert.Sage.reluLayer (V c main_v23) (V c main_arg0) (V c main_arg2) (V c main_arg4) (fun q : Fin 64 => V c main_v24 (ix2 (0 : Fin 1) q))) := by
  show (cfg0.win 5).cut (grid0.coords t) ((dat0 (F := Ideal) V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51⟩ := idx_facts t
  have htN : t.val < 20 := t.isLt
  refine funext fun (j : S5000x64.Idx) => ?_
  obtain ⟨p, q, rfl⟩ : ∃ (p : Fin 5000) (q : Fin 64), j = ix2 p q := ⟨j 0, j 1, eq_ix2 j⟩
  have hp : p.val < 5000 := p.isLt
  have hr : t.val * 5000 + p.val < 100000 := by omega
  show k0_pay1 (F := Ideal) (iblk0 V c 0 t) (iblk0 V c 1 t) (iblk0 V c 2 t) (iblk0 V c 4 t) (iblk0 V c 3 t) (ix2 p q)
    = Cert.Sage.reluLayer (V c main_v23) (V c main_arg0) (V c main_arg2) (V c main_arg4) (fun q : Fin 64 => V c main_v24 (ix2 (0 : Fin 1) q)) (((cfg0.win 5).blk t).view.emb (ix2 p q))
  refine (pay_apply (iblk0 V c 0 t) (iblk0 V c 1 t) (iblk0 V c 2 t) (iblk0 V c 4 t) (iblk0 V c 3 t) p q).trans ?_
  have hout : ((cfg0.win 5).blk t).view.emb (ix2 p q) = ix2 (⟨t.val * 5000 + p.val, hr⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  rw [hout, layer_apply]
  have ha : ∀ k : Fin 64, iblk0 V c 0 t (ix2 p k) = V c main_v23 (ix2 (⟨t.val * 5000 + p.val, hr⟩ : Fin 100000) k) := fun k => by
    show V c main_v23 (((cfg0.win 0).blk t).view.emb (ix2 p k)) = _
    refine congrArg (V c main_v23) ?_
    funext a; apply Fin.ext
    match a with
    | ⟨0, _⟩ => show win0_0.index t (0 : Fin 2) * 5000 + 1 * p.val = t.val * 5000 + p.val; omega
    | ⟨1, _⟩ => show win0_0.index t (1 : Fin 2) * 64 + 1 * k.val = k.val; omega
  have hh : ∀ k : Fin 64, iblk0 V c 1 t (ix2 p k) = V c main_arg0 (ix2 (⟨t.val * 5000 + p.val, hr⟩ : Fin 100000) k) := fun k => by
    show V c main_arg0 (((cfg0.win 1).blk t).view.emb (ix2 p k)) = _
    refine congrArg (V c main_arg0) ?_
    funext a; apply Fin.ext
    match a with
    | ⟨0, _⟩ => show win0_1.index t (0 : Fin 2) * 5000 + 1 * p.val = t.val * 5000 + p.val; omega
    | ⟨1, _⟩ => show win0_1.index t (1 : Fin 2) * 64 + 1 * k.val = k.val; omega
  have hwl : ∀ k : Fin 64, iblk0 V c 2 t (ix2 k q) = V c main_arg2 (ix2 k q) := fun k => by
    show V c main_arg2 (((cfg0.win 2).blk t).view.emb (ix2 k q)) = _
    refine congrArg (V c main_arg2) ?_
    funext a; apply Fin.ext
    match a with
    | ⟨0, _⟩ => show win0_2.index t (0 : Fin 2) * 64 + 1 * k.val = k.val; omega
    | ⟨1, _⟩ => show win0_2.index t (1 : Fin 2) * 64 + 1 * q.val = q.val; omega
  have hwr : ∀ k : Fin 64, iblk0 V c 4 t (ix2 k q) = V c main_arg4 (ix2 k q) := fun k => by
    show V c main_arg4 (((cfg0.win 4).blk t).view.emb (ix2 k q)) = _
    refine congrArg (V c main_arg4) ?_
    funext a; apply Fin.ext
    match a with
    | ⟨0, _⟩ => show win0_4.index t (0 : Fin 2) * 64 + 1 * k.val = k.val; omega
    | ⟨1, _⟩ => show win0_4.index t (1 : Fin 2) * 64 + 1 * q.val = q.val; omega
  have hb : iblk0 V c 3 t (ix2 (0 : Fin 1) q) = V c main_v24 (ix2 (0 : Fin 1) q) := by
    show V c main_v24 (((cfg0.win 3).blk t).view.emb (ix2 (0 : Fin 1) q)) = _
    refine congrArg (V c main_v24) ?_
    funext a; apply Fin.ext
    match a with
    | ⟨0, _⟩ => show win0_3.index t (0 : Fin 2) * 1 + 1 * 0 = 0; omega
    | ⟨1, _⟩ => show win0_3.index t (1 : Fin 2) * 64 + 1 * q.val = q.val; omega
  simp only [ha, hh, hwl, hwr, hb]

/-- An index of the output array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v25).slice (win0_5.rect t)).set ↔ _
  rw [View.set_slice_whole, Rect.mem_set_unit]
  exact Iff.rfl

/-- Row `r` of the output is written back by point `r / 5000`. -/
theorem cover (i : S100000x64.Idx) : ∃ t : Fin cfg0.N, (cfg0.win 5).flush t = true ∧ i ∈ ((cfg0.win 5).blk t).view.set := by
  have hN : cfg0.N = 20 := N_0
  have h0 : (i 0).val < 100000 := (i 0).isLt
  have h1 : (i 1).val < 64 := (i 1).isLt
  let t : Fin cfg0.N := ⟨(i 0).val / 5000, by rw [hN]; omega⟩
  have ht : t.val = (i 0).val / 5000 := rfl
  obtain ⟨-, -, -, -, -, -, -, -, -, -, e50, e51⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The output array of region 0 after its run, from any contents `V` the region is entered at: the layer of the
    aggregated rows (window 0's array), the nodes' own rows (window 1's), the two weight matrices (windows 2 and 4) and
    the bias row (window 3's one row). -/
theorem array_eq (V : (c : Dev nD) → (b : Ref sig .tc) → Buf (Elt Ideal) ((c : Thread nD τ).loc b)) (c : Dev nD) :
    (dat0 (F := Ideal) V c).arrAt 5 cfg0.N
      = Cert.Sage.reluLayer (V c main_v23) (V c main_arg0) (V c main_arg2) (V c main_arg4) (fun q : Fin 64 => V c main_v24 (ix2 (0 : Fin 1) q)) :=
  (dat0 (F := Ideal) V c).arrAt_eq_of_cover 5
    (Cert.Sage.reluLayer (V c main_v23) (V c main_arg0) (V c main_arg2) (V c main_arg4) (fun q : Fin 64 => V c main_v24 (ix2 (0 : Fin 1) q)))
    (fun t _ => flushed_eq V c t) cover

end Cert.KernelIdeal.Region0

end
-- ==== Proof.KRegion1.lean ====
/-
  Region 1 of the program: what its output array holds after the run, as one function of the arrays the region finds.

  The region's grid has 20 points; point t works on rows 5000 t … 5000 t + 4999. Its body takes the block of aggregated
  rows and the block of the nodes' own rows, both 5000 × 64, the two 64 × 64 weight matrices and the 1 × 64 bias row, and
  leaves, at row p and column q of the output's block,
      max ((Σ_k agg[p,k]·Wl[k,q] + b[q]) + Σ_k h[p,k]·Wr[k,q]) 0
  (the change of number format before the products is the identity on the extended reals, and a product accumulated
  from zero is the plain sum). Row p of block t is row 5000 t + p of the whole arrays, the weights and the bias are read
  whole at every point, so what point t writes back is block t of the hidden layer of the whole arrays; the 20 blocks
  tile the 100000 rows, hence the output array ends holding that layer.
-/
import proofs.«102613_j79714593014136_1_alg».proof.Proof.Gen.KernelIdeal.Frame
import proofs.«102613_j79714593014136_1_alg».proof.Proof.SageLayer
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

open scoped BigOperators

/-! ## One entry of a 5000 × 64 by 64 × 64 product

The contraction runs over the left factor's second axis and the right factor's first: entry (p, q) of the product is
the sum over k of left (p, k) times right (k, q). The four facts below name, axis by axis, which entries of the two
factors the k-th term reads. -/

theorem lhs_axis0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_axis1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_axis0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_axis1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product accumulated from zero, at row `p` and column `q`: the sum over the 64 inner positions. -/
theorem product_apply (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  show FloatOps.matmul dot_S5000x64_S64x64_S5000x64_1_0_0_1_n_n none l r (constant (F := Ideal) S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- The bias row spread over the 5000 rows, at row `p` and column `q`: the row's entry in column `q`. -/
theorem bias_apply (b : FVec Ideal S1x64 .f32) (p : Fin 5000) (q : Fin 64) :
    broadcastTo S5000x64 b broadcasts_S1x64_S5000x64 (ix2 p q) = b (ix2 (0 : Fin 1) q) := by
  refine broadcastTo_apply b broadcasts_S1x64_S5000x64 (ix2 p q) (ix2 (0 : Fin 1) q) (fun a => ?_)
  match a with
  | ⟨0, _⟩ => show 0 = if (1 : Nat) = 1 then 0 else _; rw [if_pos rfl]
  | ⟨1, _⟩ => show q.val = if (64 : Nat) = 1 then 0 else q.val; rw [if_neg (by decide)]

/-- The body's result at row `p`, column `q` of its block: the positive part of the aggregated row against the first
    weight matrix, plus the bias, plus the node's own row against the second. -/
theorem payload_apply (x0 x1 : Vec Ideal S5000x64 .f32) (x2 x4 : Vec Ideal S64x64 .f32) (x3 : Vec Ideal S1x64 .f32)
    (p : Fin 5000) (q : Fin 64) :
    k1_pay1 (F := Ideal) x0 x1 x2 x4 x3 (ix2 p q)
      = max (((∑ k : Fin 64, x0 (ix2 p k) * x2 (ix2 k q)) + x3 (ix2 (0 : Fin 1) q)) + ∑ k : Fin 64, x1 (ix2 p k) * x4 (ix2 k q)) 0 := by
  unfold k1_pay1
  simp only [shapeCast_self]
  rw [maximumf_apply, addf_apply, addf_apply, product_apply, product_apply, bias_apply, broadcast_apply]
  simp only [truncf_apply]
  show max _ (Ideal.ofBits .f32 0x00000000#32) = _
  rw [Ideal.ofBits_zero_f32]

/-! ## The blocks as parts of the whole arrays -/

theorem zero_offsets : (![0, 0] : Fin 2 → Nat) = fun _ => 0 := funext fun a => by fin_cases a <;> rfl

/-- The block indices of the six windows at the grid's point `t`: the two row-blocked inputs and the output sit at row
    block `t`; the two weight matrices and the bias row are whole, at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the `t`-th block of 5000 rows, as a row of the whole array. -/
abbrev rowOf (t : Fin cfg1.N) (p : Fin 5000) : Fin 100000 :=
  ⟨t.val * 5000 + p.val, by have ht : t.val < 20 := lt_of_lt_of_eq t.isLt N_1; have hp := p.isLt; omega⟩

section Blocks

variable (V : (c : Dev nD) → (b : Ref sig .tc) → Buf (Elt Ideal) ((c : Thread nD τ).loc b))

/-- The aggregated rows' block at point `t` is rows `5000 t … 5000 t + 4999` of their array. -/
theorem agg_block (c : Dev nD) (t : Fin cfg1.N) (p : Fin 5000) (k : Fin 64) :
    (iblk1 (F := Ideal) V c 0 t : Vec Ideal S5000x64 .f32) (ix2 p k) = (V c main_v37 : S100000x64.Idx → EReal) (ix2 (rowOf t p) k) := by
  obtain ⟨e0, e1, -⟩ := block_indices t
  unfold iblk1
  rw [View.read_apply]
  show V c main_v37 (((cfg1.win 0).blk t).view.emb (ix2 p k)) = V c main_v37 (ix2 (rowOf t p) k)
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

/-- The nodes' own rows likewise. -/
theorem own_block (c : Dev nD) (t : Fin cfg1.N) (p : Fin 5000) (k : Fin 64) :
    (iblk1 (F := Ideal) V c 1 t : Vec Ideal S5000x64 .f32) (ix2 p k) = (V c main_v25 : S100000x64.Idx → EReal) (ix2 (rowOf t p) k) := by
  obtain ⟨-, -, e0, e1, -⟩ := block_indices t
  unfold iblk1
  rw [View.read_apply]
  show V c main_v25 (((cfg1.win 1).blk t).view.emb (ix2 p k)) = V c main_v25 (ix2 (rowOf t p) k)
  refine congrArg _ (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 64 + 1 * k.val = k.val; rw [e1]; omega

/-- The first weight matrix's block at every point is the whole matrix. -/
theorem wl_block (c : Dev nD) (t : Fin cfg1.N) (k q : Fin 64) :
    (iblk1 (F := Ideal) V c 2 t : Vec Ideal S64x64 .f32) (ix2 k q) = (V c main_arg5 : S64x64.Idx → EReal) (ix2 k q) := by
  obtain ⟨-, -, -, -, e0, e1, -⟩ := block_indices t
  unfold iblk1
  rw [View.read_apply]
  show V c main_arg5 (((cfg1.win 2).blk t).view.emb (ix2 k q)) = V c main_arg5 (ix2 k q)
  refine congrArg _ (funext fun a => Fin.ext ?_)
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- The bias row's block at every point is the whole row. -/
theorem bias_block (c : Dev nD) (t : Fin cfg1.N) (q : Fin 64) :
    (iblk1 (F := Ideal) V c 3 t : Vec Ideal S1x64 .f32) (ix2 (0 : Fin 1) q) = (V c main_v38 : S1x64.Idx → EReal) (ix2 (0 : Fin 1) q) := by
  obtain ⟨-, -, -, -, -, -, e0, e1, -⟩ := block_indices t
  unfold iblk1
  rw [View.read_apply]
  show V c main_v38 (((cfg1.win 3).blk t).view.emb (ix2 (0 : Fin 1) q)) = V c main_v38 (ix2 (0 : Fin 1) q)
  refine congrArg _ (funext fun a => Fin.ext ?_)
  match a with
  | ⟨0, _⟩ => show win1_3.index t (0 : Fin 2) * 1 + 1 * 0 = 0; rw [e0]
  | ⟨1, _⟩ => show win1_3.index t (1 : Fin 2) * 64 + 1 * q.val = q.val; rw [e1]; omega

/-- The second weight matrix's block at every point is the whole matrix. -/
theorem wr_block (c : Dev nD) (t : Fin cfg1.N) (k q : Fin 64) :
    (iblk1 (F := Ideal) V c 4 t : Vec Ideal S64x64 .f32) (ix2 k q) = (V c main_arg7 : S64x64.Idx → EReal) (ix2 k q) := by
  obtain ⟨-, -, -, -, -, -, -, -, e0, e1, -⟩ := block_indices t
  unfold iblk1
  rw [View.read_apply]
  show V c main_arg7 (((cfg1.win 4).blk t).view.emb (ix2 k q)) = V c main_arg7 (ix2 k q)
  refine congrArg _ (funext fun a => Fin.ext ?_)
  match a with
  | ⟨0, _⟩ => show win1_4.index t (0 : Fin 2) * 64 + 1 * k.val = k.val; rw [e0]; omega
  | ⟨1, _⟩ => show win1_4.index t (1 : Fin 2) * 64 + 1 * q.val = q.val; rw [e1]; omega

/-- Entry (p, q) of the output's block at point `t` is entry (5000 t + p, q) of its array. -/
theorem out_block_index (t : Fin cfg1.N) (p : Fin 5000) (q : Fin 64) :
    ((cfg1.win 5).blk t).view.emb (ix2 p q) = (ix2 (rowOf t p) q : S100000x64.Idx) := by
  obtain ⟨-, -, -, -, -, -, -, -, -, -, e0, e1⟩ := block_indices t
  refine funext fun a => Fin.ext ?_
  match a with
  | ⟨0, _⟩ => show win1_5.index t (0 : Fin 2) * 5000 + 1 * p.val = t.val * 5000 + p.val; rw [e0]; omega
  | ⟨1, _⟩ => show win1_5.index t (1 : Fin 2) * 64 + 1 * q.val = q.val; rw [e1]; omega

/-- What point `t` writes back is block `t` of the layer of the arrays the region is entered at. -/
theorem flushed_eq (c : Dev nD) (t : Fin cfg1.N) :
    (dat1 (F := Ideal) V c).flushed 5 t = ((cfg1.win 5).blk t).view.read (Elt Ideal)
      (Cert.Sage.reluLayer (V c main_v37) (V c main_v25) (V c main_arg5) (V c main_arg7) (fun q : Fin 64 => V c main_v38 (ix2 (0 : Fin 1) q))) := by
  show (cfg1.win 5).cut (grid1.coords t) ((dat1 V c).after 5 t) = _
  rw [after1_5]
  unfold out1_5
  rw [View.canon_unit_zero zero_offsets]
  simp only [View.ld_unit_zero (S := S5000x64) zero_offsets, View.ld_unit_zero (S := S64x64) zero_offsets, View.ld_unit_zero (S := S1x64) zero_offsets]
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 4 t) (iblk1 V c 3 t) (ix2 p q) = _
  refine (payload_apply (iblk1 V c 0 t) (iblk1 V c 1 t) (iblk1 V c 2 t) (iblk1 V c 4 t) (iblk1 V c 3 t) p q).trans ?_
  rw [View.read_apply, out_block_index t p q]
  show _ = max (Cert.Sage.lin (V c main_v37) (V c main_v25) (V c main_arg5) (V c main_arg7) (fun q : Fin 64 => V c main_v38 (ix2 (0 : Fin 1) q)) (rowOf t p) q) 0
  unfold Cert.Sage.lin
  rw [bias_block V c t q]
  simp only [agg_block V c t, own_block V c t, wl_block V c t, wr_block V c t]

/-- An entry of the output array lies in point `t`'s block when each coordinate lies in the block's range on its axis. -/
theorem mem_block (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v39).slice (win1_5.rect t)).set ↔ _
  rw [View.set_slice_whole, Rect.mem_set_unit]
  exact Iff.rfl

/-- Every entry of the output array is written back by some point: row `r` by point `r / 5000`. -/
theorem covered (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega) N_1.symm⟩, rfl⟩
  obtain ⟨-, -, -, -, -, -, -, -, -, -, e0, e1⟩ := block_indices t
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; rw [e0]; omega
  | ⟨1, _⟩ => show win1_5.index t (1 : Fin 2) * 64 ≤ (i 1).val ∧ (i 1).val < win1_5.index t (1 : Fin 2) * 64 + 64; rw [e1]; omega

end Blocks

/-- The output array of region 1 after its run, from any contents `V` the region is entered at: the layer of the
    aggregated rows (window 0's array), the nodes' own rows (window 1's), the two weight matrices (windows 2 and 4) and
    the bias row (window 3's one row). -/
theorem array_eq (V : (c : Dev nD) → (b : Ref sig .tc) → Buf (Elt Ideal) ((c : Thread nD τ).loc b)) (c : Dev nD) :
    (dat1 (F := Ideal) V c).arrAt 5 cfg1.N
      = Cert.Sage.reluLayer (V c main_v37) (V c main_v25) (V c main_arg5) (V c main_arg7) (fun q : Fin 64 => V c main_v38 (ix2 (0 : Fin 1) q)) :=
  (dat1 (F := Ideal) V c).arrAt_eq_of_cover 5 _ (fun t _ => flushed_eq V c t) covered

end Cert.KernelIdeal.Region1

end
-- ==== Proof.KRegion2Pay.lean ====
/-
  The arithmetic of region 2's body, read entry by entry.

  The body takes a block of 5000 aggregated rows and the same 5000 nodes' own rows (64 features each), two 64×40 weight
  matrices and a bias row, forms z = a·Wl + b + h·Wr (5000×40), and replaces each row of z by its log-softmax: the row
  less its maximum, less the logarithm of the sum of the exponentials of that difference. Entry (p, q) of the result
  therefore depends on row p of the two input blocks only, through all 40 entries of row p of z.

  Over the extended reals the changes of float format are the identity, a matrix product into a zero accumulator is the
  plain sum over the 64 inner positions, the row maximum is a fold of max from the word of minus infinity (kept as a
  word, never evaluated) and the row sum is a finite sum. The steps below read each operation at an entry and put them
  together.
-/
import proofs.«102613_j79714593014136_1_alg».proof.Proof.Gen.KernelIdeal.Skeleton
import proofs.«102613_j79714593014136_1_alg».proof.Proof.SageLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen
open Idealize.ShloMosaic Idealize.ShloMosaic.ValueIdx

/-! ## The matrix product at an entry

The product contracts axis 1 of the left operand with axis 0 of the right one. The four statements below say where the
operands are read for output entry i and inner position k: the left at (i 0, k), the right at (k, i 1). -/
/-- The left operand's row is the output's row. -/
theorem lhs_axis0 (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
/-- The left operand's column is the inner position. -/
theorem lhs_axis1 (i : S5000x40.Idx) (q : dot_S5000x64_S64x40_S5000x40_1_0_0_1_n_n.contr.Idx) :
    (dot_S5000x64_S64x40_S5000x40_1_0_0_1_n_n.lhsIdx i q 1).val = (q ⟨0, by decide⟩).val :=
  dot_S5000x64_S64x40_S5000x40_1_0_0_1_n_n.lhsIdx_val_of_single rfl i q
/-- The right operand's row is the inner position. -/
theorem rhs_axis0 (i : S5000x40.Idx) (q : dot_S5000x64_S64x40_S5000x40_1_0_0_1_n_n.contr.Idx) :
    (dot_S5000x64_S64x40_S5000x40_1_0_0_1_n_n.rhsIdx i q 0).val = (q ⟨0, by decide⟩).val :=
  dot_S5000x64_S64x40_S5000x40_1_0_0_1_n_n.rhsIdx_val_of_single rfl i q
/-- The right operand's column is the output's column. -/
theorem rhs_axis1 (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- A product of a 5000×64 block with a 64×40 matrix into a zero accumulator, at row p and column q: the sum over the 64 inner positions. -/
theorem matmul_at {φ₁ φ₂ : FTy} (l : FVec Ideal S5000x64 φ₁) (r : FVec Ideal S64x40 φ₂) (p : Fin 5000) (q : Fin 40) :
    matmul (F := Ideal) dot_S5000x64_S64x40_S5000x40_1_0_0_1_n_n none l r (constant (F := Ideal) S5000x40 .f32 0x00000000#32) (ix2 p q)
      = ∑ k : Fin 64, l (ix2 p k) * r (ix2 k q) := by
  simp only [matmul]
  rw [Ideal.matmul_constant_zero_apply, ← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p q) ((contrEquiv1 dot_S5000x64_S64x40_S5000x40_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x40_S5000x40_1_0_0_1_n_n.rhsIdx (ix2 p q) ((contrEquiv1 dot_S5000x64_S64x40_S5000x40_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-! ## Columns: a vector viewed as a column, a column spread over a row -/

section Columns
variable {α : Type}

/-- A length-a vector viewed as an a×1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The two reductions along a row -/

/-- The maximum along a row of a 5000×40 block, started from the word of minus infinity: the fold of max over the row's 40 entries. -/
theorem rowMax_at (src : FVec Ideal S5000x40 .f32) (p : Fin 5000) :
    multiReduction (F := Ideal) .maximumf [1] S5000 src 0xFF800000#32 reduces_S5000x40_S5000 (.inl rfl) rfl (ix1 p)
      = (Finset.univ : Finset (Fin 40)).fold max Cert.Sage.negInf (fun q => src (ix2 p q)) := by
  refine (Ideal.multiReduction_maximumf_single src 0xFF800000#32 reduces_S5000x40_S5000 (.inl rfl) rfl (ix1 p)).trans ?_
  show (Finset.univ : Finset (Fin 40)).fold max Cert.Sage.negInf (fun q => src (reduces_S5000x40_S5000.lift (ix1 p) q)) = _
  congr 1
  funext q
  congr 1
  funext a
  apply Fin.ext
  match a with
  | ⟨0, _⟩ => rfl
  | ⟨1, _⟩ => rfl

/-- The sum along a row of a 5000×40 block, started from zero: the sum of the row's 40 entries. -/
theorem rowSum_at (src : FVec Ideal S5000x40 .f32) (p : Fin 5000) :
    multiReduction (F := Ideal) .add [1] S5000 src 0x00000000#32 reduces_S5000x40_S5000 (.inl rfl) rfl (ix1 p)
      = ∑ q : Fin 40, src (ix2 p q) := by
  refine (Ideal.multiReduction_add_single src 0x00000000#32 reduces_S5000x40_S5000 (.inl rfl) rfl (ix1 p)).trans ?_
  show ∑ q : Fin 40, src (reduces_S5000x40_S5000.lift (ix1 p) q) = _
  refine Finset.sum_congr rfl fun q _ => ?_
  congr 1
  funext a
  apply Fin.ext
  match a with
  | ⟨0, _⟩ => rfl
  | ⟨1, _⟩ => rfl

/-! ## The body's value, in four steps -/

/-- The block before its activation: the aggregated rows against the first matrix, plus the bias row, plus the nodes' own rows against the second matrix. -/
def zblk (x0 x1 : Vec Ideal S5000x64 .f32) (x2 x4 : Vec Ideal S64x40 .f32) (x3 : Vec Ideal S1x40 .f32) : FVec Ideal S5000x40 .f32 :=
  addf
    (addf
      (matmul dot_S5000x64_S64x40_S5000x40_1_0_0_1_n_n none
        (truncf .bf16 (shapeCast S5000x64 x0 shapeCasts_S5000x64_S5000x64) bitsLt_bf16_f32)
        (truncf .bf16 x2 bitsLt_bf16_f32) (constant S5000x40 .f32 0x00000000#32))
      (broadcastTo S5000x40 (shapeCast S1x40 x3 shapeCasts_S1x40_S1x40) broadcasts_S1x40_S5000x40))
    (matmul dot_S5000x64_S64x40_S5000x40_1_0_0_1_n_n none
      (truncf .bf16 (shapeCast S5000x64 x1 shapeCasts_S5000x64_S5000x64) bitsLt_bf16_f32)
      (truncf .bf16 x4 bitsLt_bf16_f32) (constant S5000x40 .f32 0x00000000#32))

/-- Entry (p, q) of the block before its activation. -/
theorem zblk_at (x0 x1 : Vec Ideal S5000x64 .f32) (x2 x4 : Vec Ideal S64x40 .f32) (x3 : Vec Ideal S1x40 .f32) (p : Fin 5000) (q : Fin 40) :
    zblk x0 x1 x2 x4 x3 (ix2 p q)
      = ((∑ k : Fin 64, x0 (ix2 p k) * x2 (ix2 k q)) + x3 (ix2 (0 : Fin 1) q)) + ∑ k : Fin 64, x1 (ix2 p k) * x4 (ix2 k q) := by
  unfold zblk
  rw [addf_apply, addf_apply, matmul_at, matmul_at, broadcastTo_1b_ab_apply]
  simp only [truncf_apply, shapeCast_self]

/-- Each row's maximum (taken from minus infinity, and once more against it), spread back over the row's 40 columns. -/
def maxCols (z : FVec Ideal S5000x40 .f32) : FVec Ideal S5000x40 .f32 :=
  broadcastTo S5000x40 (shapeCast S5000x1
    (maximumf (broadcast S5000 (Scalar.ofBits (F := Ideal) .f32 0xFF800000#32))
      (multiReduction .maximumf [1] S5000 z 0xFF800000#32 reduces_S5000x40_S5000 (.inl rfl) rfl))
    shapeCasts_S5000_S5000x1) broadcasts_S5000x1_S5000x40

/-- At (p, q): the maximum of minus infinity and the fold of max over row p. -/
theorem maxCols_at (z : FVec Ideal S5000x40 .f32) (p : Fin 5000) (q : Fin 40) :
    maxCols z (ix2 p q) = max Cert.Sage.negInf ((Finset.univ : Finset (Fin 40)).fold max Cert.Sage.negInf (fun q' => z (ix2 p q'))) := by
  unfold maxCols
  rw [broadcastTo_a1_ab_apply, shapeCast_a_a1_apply, maximumf_apply, broadcast_apply, rowMax_at]
  rfl

/-- The block less its rows' maxima. -/
def shifted (z : FVec Ideal S5000x40 .f32) : FVec Ideal S5000x40 .f32 := subf z (maxCols z)

/-- At (p, q): the shift of row p, at column q. -/
theorem shifted_at (z : FVec Ideal S5000x40 .f32) (p : Fin 5000) (q : Fin 40) :
    shifted z (ix2 p q) = Cert.Sage.shift (fun q' => z (ix2 p q')) q := by
  unfold shifted Cert.Sage.shift
  rw [subf_apply, maxCols_at]

/-- The logarithm of each row's sum of exponentials, spread back over the row's 40 columns. -/
def logSumCols (s : FVec Ideal S5000x40 .f32) : FVec Ideal S5000x40 .f32 :=
  broadcastTo S5000x40 (log (shapeCast S5000x1
    (multiReduction .add [1] S5000 (exp s) 0x00000000#32 reduces_S5000x40_S5000 (.inl rfl) rfl)
    shapeCasts_S5000_S5000x1)) broadcasts_S5000x1_S5000x40

/-- At (p, q): the logarithm of the sum of the exponentials of row p. -/
theorem logSumCols_at (s : FVec Ideal S5000x40 .f32) (p : Fin 5000) (q : Fin 40) :
    logSumCols s (ix2 p q) = Ideal.log (∑ j : Fin 40, Ideal.exp (s (ix2 p j))) := by
  unfold logSumCols
  rw [broadcastTo_a1_ab_apply]
  show Ideal.log (shapeCast S5000x1 (multiReduction (F := Ideal) .add [1] S5000 (exp s) 0x00000000#32 reduces_S5000x40_S5000 (.inl rfl) rfl) shapeCasts_S5000_S5000x1 (ix2 p (0 : Fin 1))) = _
  rw [shapeCast_a_a1_apply, rowSum_at]
  rfl

/-- The row-wise log-softmax of a 5000×40 block, as the body performs it. -/
def lsmBlk (z : FVec Ideal S5000x40 .f32) : FVec Ideal S5000x40 .f32 :=
  subf (shifted z) (logSumCols (shifted z))

/-- At (p, q): the log-softmax of row p, at column q. -/
theorem lsmBlk_at (z : FVec Ideal S5000x40 .f32) (p : Fin 5000) (q : Fin 40) :
    lsmBlk z (ix2 p q) = Cert.Sage.logSoftmaxRow (fun q' => z (ix2 p q')) q := by
  unfold lsmBlk Cert.Sage.logSoftmaxRow
  rw [subf_apply, logSumCols_at, shifted_at]
  simp only [shifted_at]

/-- The body's arithmetic is the log-softmax of the block before its activation. -/
theorem pay_eq (x0 x1 : Vec Ideal S5000x64 .f32) (x2 x4 : Vec Ideal S64x40 .f32) (x3 : Vec Ideal S1x40 .f32) :
    k2_pay1 (F := Ideal) x0 x1 x2 x4 x3 = lsmBlk (zblk x0 x1 x2 x4 x3) := rfl

/-- Entry (p, q) of what the body stores: the log-softmax, at column q, of row p of the pre-activation. -/
theorem pay_at (x0 x1 : Vec Ideal S5000x64 .f32) (x2 x4 : Vec Ideal S64x40 .f32) (x3 : Vec Ideal S1x40 .f32) (p : Fin 5000) (q : Fin 40) :
    k2_pay1 (F := Ideal) x0 x1 x2 x4 x3 (ix2 p q)
      = Cert.Sage.logSoftmaxRow (fun q' : Fin 40 => ((∑ k : Fin 64, x0 (ix2 p k) * x2 (ix2 k q')) + x3 (ix2 (0 : Fin 1) q')) + ∑ k : Fin 64, x1 (ix2 p k) * x4 (ix2 k q')) q := by
  rw [pay_eq, lsmBlk_at]
  simp only [zblk_at]

end Cert.KernelIdeal.Region2

end
-- ==== Proof.KRegion2.lean ====
/-
  Region 2 of the program: what its output array holds after the run, as one function of the arrays the region finds.

  The region runs over 20 points. Point t reads rows 5000·t … 5000·t + 4999 of the aggregated array and of the nodes'
  array (64 features each), the whole of the two 64×40 weight matrices and the one bias row, and writes back rows
  5000·t … 5000·t + 4999 of the 100000×40 output. Entry (p, q) of the block it writes is the log-softmax, at column q, of
  row p of the block's pre-activation; that row reads row p of the two input blocks only. Since row p of a block at
  point t is row 5000·t + p of its array, the block written back is the same rows of the layer of the whole arrays. The
  20 blocks cover the output (row r lies in the block of point r / 5000), so the output array ends holding the layer.
-/
import proofs.«102613_j79714593014136_1_alg».proof.Proof.Gen.KernelIdeal.Frame
import proofs.«102613_j79714593014136_1_alg».proof.Proof.SageLayer
import proofs.«102613_j79714593014136_1_alg».proof.Proof.KRegion2Pay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- A pre-activation row from rows of blocks: if row p of the two input blocks is row r of the two arrays, and the
    matrices' and the bias row's blocks are the arrays themselves, then row p of the block's pre-activation is row r of
    the layer's. -/
theorem lin_of_rows (x0 x1 : Vec Ideal S5000x64 .f32) (x2 x4 : Vec Ideal S64x40 .f32) (x3 : Vec Ideal S1x40 .f32)
    (a h : S100000x64.Idx → EReal) (wl wr : S64x40.Idx → EReal) (b : S1x40.Idx → EReal) (p : Fin 5000) (r : Fin 100000)
    (h0 : ∀ k : Fin 64, x0 (ix2 p k) = a (ix2 r k)) (h1 : ∀ k : Fin 64, x1 (ix2 p k) = h (ix2 r k))
    (h2 : ∀ (k : Fin 64) (q : Fin 40), x2 (ix2 k q) = wl (ix2 k q)) (h3 : ∀ q : Fin 40, x3 (ix2 (0 : Fin 1) q) = b (ix2 (0 : Fin 1) q))
    (h4 : ∀ (k : Fin 64) (q : Fin 40), x4 (ix2 k q) = wr (ix2 k q)) (q' : Fin 40) :
    ((∑ k : Fin 64, x0 (ix2 p k) * x2 (ix2 k q')) + x3 (ix2 (0 : Fin 1) q')) + ∑ k : Fin 64, x1 (ix2 p k) * x4 (ix2 k q')
      = Cert.Sage.lin a h wl wr (fun q : Fin 40 => b (ix2 (0 : Fin 1) q)) r q' :=
  congrArg₂ (· + ·)
    (congrArg₂ (· + ·) (Finset.sum_congr rfl fun k _ => congrArg₂ (· * ·) (h0 k) (h2 k q')) (h3 q'))
    (Finset.sum_congr rfl fun k _ => congrArg₂ (· * ·) (h1 k) (h4 k q'))

/-- The body reads and writes its whole blocks: through offsets zero on both axes. -/
theorem zero_offsets : (![0, 0] : Fin 2 → Nat) = fun _ => 0 := funext fun a => by fin_cases a <;> rfl

/-- The block indices of the six windows at a point, decided over the 20 points: the two row-block windows and the
    output sit at block (t, 0); the two matrices and the bias row are whole arrays at block (0, 0). -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section Blocks

variable (V : (c : Dev nD) → (b : Ref sig .tc) → Buf (Elt Ideal) ((c : Thread nD τ).loc b)) (c : Dev nD)

/-- Row p of the aggregated block at point t is row 5000·t + p of the aggregated array. -/
theorem aggBlock_at (t : Fin cfg2.N) (p : Fin 5000) (k : Fin 64) (r : Fin 100000) (hr : r.val = t.val * 5000 + p.val) :
    (iblk2 (F := Ideal) V c 0 t : Vec Ideal S5000x64 .f32) (ix2 p k) = (V c main_v51 : S100000x64.Idx → EReal) (ix2 r k) := by
  obtain ⟨e0, e1, -⟩ := block_indices t
  show V c main_v51 (((cfg2.win 0).blk t).view.emb (ix2 p k)) = V c main_v51 (ix2 r k)
  refine congrArg (V c main_v51) (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- Row p of the nodes' own block at point t is row 5000·t + p of the nodes' array. -/
theorem ownBlock_at (t : Fin cfg2.N) (p : Fin 5000) (k : Fin 64) (r : Fin 100000) (hr : r.val = t.val * 5000 + p.val) :
    (iblk2 (F := Ideal) V c 1 t : Vec Ideal S5000x64 .f32) (ix2 p k) = (V c main_v39 : S100000x64.Idx → EReal) (ix2 r k) := by
  obtain ⟨-, -, e0, e1, -⟩ := block_indices t
  show V c main_v39 (((cfg2.win 1).blk t).view.emb (ix2 p k)) = V c main_v39 (ix2 r k)
  refine congrArg (V c main_v39) (funext fun a => Fin.ext ?_)
  match a with
  | ⟨0, _⟩ => show win2_1.index t (0 : Fin 2) * 5000 + 1 * p.val = r.val; omega
  | ⟨1, _⟩ => show win2_1.index t (1 : Fin 2) * 64 + 1 * k.val = k.val; omega

/-- The first weight matrix's block is the matrix. -/
theorem wlBlock_at (t : Fin cfg2.N) (k : Fin 64) (q : Fin 40) :
    (iblk2 (F := Ideal) V c 2 t : Vec Ideal S64x40 .f32) (ix2 k q) = (V c main_arg8 : S64x40.Idx → EReal) (ix2 k q) := by
  obtain ⟨-, -, -, -, e0, e1, -⟩ := block_indices t
  show V c main_arg8 (((cfg2.win 2).blk t).view.emb (ix2 k q)) = V c main_arg8 (ix2 k q)
  refine congrArg (V c main_arg8) (funext fun a => Fin.ext ?_)
  match a with
  | ⟨0, _⟩ => show win2_2.index t (0 : Fin 2) * 64 + 1 * k.val = k.val; omega
  | ⟨1, _⟩ => show win2_2.index t (1 : Fin 2) * 40 + 1 * q.val = q.val; omega

/-- The bias row's block is the row. -/
theorem biasBlock_at (t : Fin cfg2.N) (q : Fin 40) :
    (iblk2 (F := Ideal) V c 3 t : Vec Ideal S1x40 .f32) (ix2 (0 : Fin 1) q) = (V c main_v52 : S1x40.Idx → EReal) (ix2 (0 : Fin 1) q) := by
  obtain ⟨-, -, -, -, -, -, e0, e1, -⟩ := block_indices t
  show V c main_v52 (((cfg2.win 3).blk t).view.emb (ix2 (0 : Fin 1) q)) = V c main_v52 (ix2 (0 : Fin 1) q)
  refine congrArg (V c main_v52) (funext fun a => Fin.ext ?_)
  match a with
  | ⟨0, _⟩ => show win2_3.index t (0 : Fin 2) * 1 + 1 * 0 = 0; omega
  | ⟨1, _⟩ => show win2_3.index t (1 : Fin 2) * 40 + 1 * q.val = q.val; omega

/-- The second weight matrix's block is the matrix. -/
theorem wrBlock_at (t : Fin cfg2.N) (k : Fin 64) (q : Fin 40) :
    (iblk2 (F := Ideal) V c 4 t : Vec Ideal S64x40 .f32) (ix2 k q) = (V c main_arg10 : S64x40.Idx → EReal) (ix2 k q) := by
  obtain ⟨-, -, -, -, -, -, -, -, e0, e1, -⟩ := block_indices t
  show V c main_arg10 (((cfg2.win 4).blk t).view.emb (ix2 k q)) = V c main_arg10 (ix2 k q)
  refine congrArg (V c main_arg10) (funext fun a => Fin.ext ?_)
  match a with
  | ⟨0, _⟩ => show win2_4.index t (0 : Fin 2) * 64 + 1 * k.val = k.val; omega
  | ⟨1, _⟩ => show win2_4.index t (1 : Fin 2) * 40 + 1 * q.val = q.val; omega

/-- The layer of the arrays the region finds: what the output array is to hold. -/
abbrev layerOf : S100000x40.Idx → EReal :=
  Cert.Sage.logSoftmaxLayer (V c main_v51) (V c main_v39) (V c main_arg8) (V c main_arg10) (fun q : Fin 40 => V c main_v52 (ix2 (0 : Fin 1) q))

/-- What point t writes back is block t of the layer: rows 5000·t … 5000·t + 4999, each the log-softmax of its own
    pre-activation row, which reads the same row of the two input blocks and the whole of the matrices and the bias. -/
theorem flushed_eq (t : Fin cfg2.N) :
    (dat2 (F := Ideal) V c).flushed 5 t = ((cfg2.win 5).blk t).view.read (Elt Ideal) (layerOf V c) := by
  show (cfg2.win 5).cut (grid2.coords t) ((dat2 V c).after 5 t) = _
  rw [after2_5]
  unfold out2_5
  rw [View.canon_unit_zero zero_offsets]
  simp only [View.ld_unit_zero (S := S5000x64) zero_offsets, View.ld_unit_zero (S := S64x40) zero_offsets, View.ld_unit_zero (S := S1x40) zero_offsets]
  funext j
  obtain ⟨p, q, rfl⟩ : ∃ (p : Fin 5000) (q : Fin 40), j = ix2 p q := ⟨j 0, j 1, eq_ix2 j⟩
  show k2_pay1 (F := Ideal) (iblk2 V c 0 t) (iblk2 V c 1 t) (iblk2 V c 2 t) (iblk2 V c 4 t) (iblk2 V c 3 t) (ix2 p q)
    = layerOf V c (((cfg2.win 5).blk t).view.emb (ix2 p q))
  refine (pay_at (iblk2 V c 0 t) (iblk2 V c 1 t) (iblk2 V c 2 t) (iblk2 V c 4 t) (iblk2 V c 3 t) p q).trans ?_
  obtain ⟨-, -, -, -, -, -, -, -, -, -, e0, e1⟩ := block_indices t
  have ht : t.val < 20 := lt_of_lt_of_eq t.isLt N_2
  have hp : p.val < 5000 := p.isLt
  let r : Fin 100000 := ⟨t.val * 5000 + p.val, by omega⟩
  have hr0 : (((cfg2.win 5).blk t).view.emb (ix2 p q)) 0 = r :=
    Fin.ext (by show win2_5.index t (0 : Fin 2) * 5000 + 1 * p.val = t.val * 5000 + p.val; omega)
  have hq1 : (((cfg2.win 5).blk t).view.emb (ix2 p q)) 1 = q :=
    Fin.ext (by show win2_5.index t (1 : Fin 2) * 40 + 1 * q.val = q.val; omega)
  refine congrArg₂ Cert.Sage.logSoftmaxRow (funext fun q' =>
    (lin_of_rows (iblk2 V c 0 t) (iblk2 V c 1 t) (iblk2 V c 2 t) (iblk2 V c 4 t) (iblk2 V c 3 t)
      (V c main_v51) (V c main_v39) (V c main_arg8) (V c main_arg10) (V c main_v52) p r
      (fun k => aggBlock_at V c t p k r rfl) (fun k => ownBlock_at V c t p k r rfl) (fun k q => wlBlock_at V c t k q)
      (fun q => biasBlock_at V c t q) (fun k q => wrBlock_at V c t k q) q').trans ?_) hq1.symm
  exact congrArg (fun i0 : Fin 100000 => Cert.Sage.lin (V c main_v51) (V c main_v39) (V c main_arg8) (V c main_arg10) (fun q : Fin 40 => V c main_v52 (ix2 (0 : Fin 1) q)) i0 q') hr0.symm

/-- An index of the output array is in point t's block iff each coordinate is in the block's range on its axis. -/
theorem mem_block (t : Fin cfg2.N) (i : S100000x40.Idx) :
    i ∈ ((cfg2.win 5).blk t).view.set ↔ ∀ a : Fin 2, win2_5.index t a * S5000x40.size a ≤ (i a).val ∧ (i a).val < win2_5.index t a * S5000x40.size a + S5000x40.size a := by
  show i ∈ ((View.whole main_v53).slice (win2_5.rect t)).set ↔ _
  rw [View.set_slice_whole, Rect.mem_set_unit]
  exact Iff.rfl

/-- Every row of the output array is written back by some point: row r by point r / 5000. -/
theorem covered (i : S100000x40.Idx) : ∃ t : Fin cfg2.N, (cfg2.win 5).flush t = true ∧ i ∈ ((cfg2.win 5).blk t).view.set := by
  have hi0 : (i 0).val < 100000 := (i 0).isLt
  have hi1 : (i 1).val < 40 := (i 1).isLt
  have hN : cfg2.N = 20 := N_2
  let t : Fin cfg2.N := ⟨(i 0).val / 5000, by rw [hN]; omega⟩
  obtain ⟨-, -, -, -, -, -, -, -, -, -, e0, e1⟩ := block_indices t
  have htv : t.val = (i 0).val / 5000 := rfl
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 40 ≤ (i 1).val ∧ (i 1).val < win2_5.index t (1 : Fin 2) * 40 + 40; omega

end Blocks

/-- The output array of region 2 after its run, from any contents `V` the region is entered at: the layer of the
    aggregated rows (window 0's array), the nodes' own rows (window 1's), the two weight matrices (windows 2 and 4) and
    the bias row (window 3's one row). -/
theorem array_eq (V : (c : Dev nD) → (b : Ref sig .tc) → Buf (Elt Ideal) ((c : Thread nD τ).loc b)) (c : Dev nD) :
    (dat2 (F := Ideal) V c).arrAt 5 cfg2.N
      = Cert.Sage.logSoftmaxLayer (V c main_v51) (V c main_v39) (V c main_arg8) (V c main_arg10) (fun q : Fin 40 => V c main_v52 (ix2 (0 : Fin 1) q)) :=
  (dat2 (F := Ideal) V c).arrAt_eq_of_cover 5 (layerOf V c) (fun t _ => flushed_eq V c t) covered

end Cert.KernelIdeal.Region2

end
-- ==== Proof.SageHost.lean ====
/-
  The host-side operations of the network, named once over the reference's shapes: reading the edge list, the sum of
  the neighbours' rows, the in-degree clipped below at one, the mean written as a quotient and as a product with the
  reciprocal, and a layer's dense part with its activation as the reference spells it on whole arrays.

  An edge list `e` has the source nodes in row 0 (`src e`) and the destination nodes in row 1 (`dst e`); the operations below take the two rows `s` and `d`. A negative source counts from the
  end (the index has the number of nodes added). The sum of the neighbours' rows gathers the source rows and adds each
  into its destination's row; the in-degree adds a one per edge into its destination. The mean divides the sum by the
  degree clipped below at one.

  `meanMul_eq_meanDiv`: the product with the reciprocal of the clipped degree is the quotient by it, entry by entry,
  because a maximum with one is never zero and off zero the quotient is the product with the inverse.
-/
import proofs.«102613_j79714593014136_1_alg».proof.Proof.Gen.ReferenceIdeal
import proofs.«102613_j79714593014136_1_alg».proof.Proof.SageLayer

noncomputable section

namespace Cert.Sage

open Cert.ReferenceIdeal Cert.ReferenceIdeal.Facts₀ Cert.ReferenceIdeal.Facts Idealize.ShloMosaic Idealize.ShloMosaic.ValueIdx

variable {F : FTy → Type} [FloatOps F]

/-- The edges' source nodes: row 0 of the edge list. -/
def src (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The edges' destination nodes: row 1 of the edge list. -/
def dst (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The source nodes with a negative one counted from the end. -/
def srcWrapped (s : (⟨S1600000, .i32⟩ : BufTy).Contents (Elt F)) : (⟨S1600000, .i32⟩ : BufTy).Contents (Elt F) :=
  select (cmpi .slt s (broadcastInDim S1600000 ![] bcast_S_S1600000 (constantI S_ 32 0#32)))
    (addi s (broadcastInDim S1600000 ![] bcast_S_S1600000 (constantI S_ 32 100000#32))) s

/-- Each node's row: the sum of its in-neighbours' rows of `h`, over edges with sources `s` and destinations `d`. -/
def nbrSum (h : (⟨S100000x64, .f32⟩ : BufTy).Contents (Elt F)) (s d : (⟨S1600000, .i32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (Host.gather gather_S100000x64_S1600000x1_S1600000x64_1_0_n_n_0_1_164 h
      (broadcastInDim S1600000x1 ![0] bcast_S1600000_S1600000x1_0 (srcWrapped (F := F) s)))

/-- Each node's in-degree: a one added per edge into its destination. -/
def degree (d : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 d)
    (broadcastInDim S1600000 ![] bcast_S_S1600000 (constant S_ .f32 0x3F800000#32))

/-- The in-degree clipped below at one. -/
def degClipped (d : (⟨S1600000, .i32⟩ : BufTy).Contents (Elt F)) : (⟨S100000, .f32⟩ : BufTy).Contents (Elt F) :=
  maximumf (broadcastInDim S100000 ![] bcast_S_S100000 (constant S_ .f32 0x3F800000#32)) (degree (F := F) d)

/-- A per-node number laid along every column of a node-feature array. -/
def alongRows (d : (⟨S100000, .f32⟩ : BufTy).Contents (Elt F)) : (⟨S100000x64, .f32⟩ : BufTy).Contents (Elt F) :=
  broadcastInDim S100000x64 ![0, 1] bcast_S100000x1_S100000x64_0_1 (broadcastInDim S100000x1 ![0] bcast_S100000_S100000x1_0 d)

/-- The neighbours' mean as the reference writes it: the sum divided by the clipped degree. -/
def meanDiv (h : (⟨S100000x64, .f32⟩ : BufTy).Contents (Elt F)) (s d : (⟨S1600000, .i32⟩ : BufTy).Contents (Elt F)) : (⟨S100000x64, .f32⟩ : BufTy).Contents (Elt F) :=
  Host.divf (nbrSum h s d) (alongRows (degClipped (F := F) d))

/-- The neighbours' mean as the kernel's program writes it: the sum times the reciprocal of the clipped degree. -/
def meanMul (h : (⟨S100000x64, .f32⟩ : BufTy).Contents (Elt F)) (s d : (⟨S1600000, .i32⟩ : BufTy).Contents (Elt F)) : (⟨S100000x64, .f32⟩ : BufTy).Contents (Elt F) :=
  mulf (nbrSum h s d)
    (alongRows (Host.divf (broadcastInDim S100000 ![] bcast_S_S100000 (constant S_ .f32 0x3F800000#32)) (degClipped (F := F) d)))

/-- A hidden layer as the reference writes it on whole arrays: two matrix products, the bias along the rows, the
    positive part. -/
def hiddenHost (a h : (⟨S100000x64, .f32⟩ : BufTy).Contents (Elt F)) (wl : (⟨S64x64, .f32⟩ : BufTy).Contents (Elt F)) (b : (⟨S64, .f32⟩ : BufTy).Contents (Elt F)) (wr : (⟨S64x64, .f32⟩ : BufTy).Contents (Elt F)) : (⟨S100000x64, .f32⟩ : BufTy).Contents (Elt F) :=
  maximumf
    (addf
      (addf (Host.dotGeneral dot_S100000x64_S64x64_S100000x64_1_0_0_1_n_n none a wl)
        (broadcastInDim S100000x64 ![0, 1] bcast_S1x64_S100000x64_0_1 (broadcastInDim S1x64 ![1] bcast_S64_S1x64_1 b)))
      (Host.dotGeneral dot_S100000x64_S64x64_S100000x64_1_0_0_1_n_n none h wr))
    (broadcastInDim S100000x64 ![] bcast_S_S100000x64 (constant S_ .f32 0x00000000#32))

/-- The output layer before its activation, as the reference writes it. -/
def logitsHost (a h : (⟨S100000x64, .f32⟩ : BufTy).Contents (Elt F)) (wl : (⟨S64x40, .f32⟩ : BufTy).Contents (Elt F)) (b : (⟨S40, .f32⟩ : BufTy).Contents (Elt F)) (wr : (⟨S64x40, .f32⟩ : BufTy).Contents (Elt F)) : (⟨S100000x40, .f32⟩ : BufTy).Contents (Elt F) :=
  addf
    (addf (Host.dotGeneral dot_S100000x64_S64x40_S100000x40_1_0_0_1_n_n none a wl)
      (broadcastInDim S100000x40 ![0, 1] bcast_S1x40_S100000x40_0_1 (broadcastInDim S1x40 ![1] bcast_S40_S1x40_1 b)))
    (Host.dotGeneral dot_S100000x64_S64x40_S100000x40_1_0_0_1_n_n none h wr)

/-- Each row less its maximum, as the reference writes it. -/
def shiftHost (z : (⟨S100000x40, .f32⟩ : BufTy).Contents (Elt F)) : (⟨S100000x40, .f32⟩ : BufTy).Contents (Elt F) :=
  subf z
    (broadcastInDim S100000x40 ![0, 1] bcast_S100000x1_S100000x40_0_1
      (broadcastInDim S100000x1 ![0] bcast_S100000_S100000x1_0
        (maximumf (broadcastInDim S100000 ![] bcast_S_S100000 (constant S_ .f32 0xFF800000#32))
          (Host.reduce FloatOps.maximumf z (constant S_ .f32 0xFF800000#32) reducesTo_S100000x40_S100000_d1 h_S_))))

/-- The row-wise log-softmax as the reference writes it on a whole array. -/
def logSoftmaxHost (z : (⟨S100000x40, .f32⟩ : BufTy).Contents (Elt F)) : (⟨S100000x40, .f32⟩ : BufTy).Contents (Elt F) :=
  subf (shiftHost z)
    (broadcastInDim S100000x40 ![0, 1] bcast_S100000x1_S100000x40_0_1
      (Host.log
        (broadcastInDim S100000x1 ![0] bcast_S100000_S100000x1_0
          (Host.reduceAdd (Host.exp (shiftHost z)) (constant S_ .f32 0x00000000#32) reducesTo_S100000x40_S100000_d1 h_S_))))

end Cert.Sage

end
-- ==== Proof.SageNet.lean ====
/-
  The three layers composed, in the two spellings: the reference's (whole-array host operations, the mean as a
  quotient) at any float instance, and the kernel program's (the layer functions of SageLayer.lean, the mean as a
  product with the reciprocal) over the extended reals. Each hidden layer feeds the next twice: as the rows that are
  aggregated and as the nodes' own rows.
-/
import proofs.«102613_j79714593014136_1_alg».proof.Proof.SageHost

noncomputable section

namespace Cert.Sage

open Cert.ReferenceIdeal Cert.ReferenceIdeal.Facts₀ Cert.ReferenceIdeal.Facts Idealize.ShloMosaic Idealize.ShloMosaic.ValueIdx

section Reference
variable {F : FTy → Type} [FloatOps F]

/-- The reference's first hidden layer. -/
def refHidden1 (x : (⟨S100000x64, .f32⟩ : BufTy).Contents (Elt F)) (e : (⟨S2x1600000, .i32⟩ : BufTy).Contents (Elt F))
    (wl0 : (⟨S64x64, .f32⟩ : BufTy).Contents (Elt F)) (b0 : (⟨S64, .f32⟩ : BufTy).Contents (Elt F)) (wr0 : (⟨S64x64, .f32⟩ : BufTy).Contents (Elt F)) :
    (⟨S100000x64, .f32⟩ : BufTy).Contents (Elt F) :=
  hiddenHost (meanDiv x (src (F := F) e) (dst (F := F) e)) x wl0 b0 wr0

/-- The reference's second hidden layer. -/
def refHidden2 (x : (⟨S100000x64, .f32⟩ : BufTy).Contents (Elt F)) (e : (⟨S2x1600000, .i32⟩ : BufTy).Contents (Elt F))
    (wl0 : (⟨S64x64, .f32⟩ : BufTy).Contents (Elt F)) (b0 : (⟨S64, .f32⟩ : BufTy).Contents (Elt F)) (wr0 : (⟨S64x64, .f32⟩ : BufTy).Contents (Elt F))
    (wl1 : (⟨S64x64, .f32⟩ : BufTy).Contents (Elt F)) (b1 : (⟨S64, .f32⟩ : BufTy).Contents (Elt F)) (wr1 : (⟨S64x64, .f32⟩ : BufTy).Contents (Elt F)) :
    (⟨S100000x64, .f32⟩ : BufTy).Contents (Elt F) :=
  hiddenHost (meanDiv (refHidden1 x e wl0 b0 wr0) (src (F := F) e) (dst (F := F) e)) (refHidden1 x e wl0 b0 wr0) wl1 b1 wr1

/-- The reference's result. -/
def refOut (x : (⟨S100000x64, .f32⟩ : BufTy).Contents (Elt F)) (e : (⟨S2x1600000, .i32⟩ : BufTy).Contents (Elt F))
    (wl0 : (⟨S64x64, .f32⟩ : BufTy).Contents (Elt F)) (b0 : (⟨S64, .f32⟩ : BufTy).Contents (Elt F)) (wr0 : (⟨S64x64, .f32⟩ : BufTy).Contents (Elt F))
    (wl1 : (⟨S64x64, .f32⟩ : BufTy).Contents (Elt F)) (b1 : (⟨S64, .f32⟩ : BufTy).Contents (Elt F)) (wr1 : (⟨S64x64, .f32⟩ : BufTy).Contents (Elt F))
    (wl2 : (⟨S64x40, .f32⟩ : BufTy).Contents (Elt F)) (b2 : (⟨S40, .f32⟩ : BufTy).Contents (Elt F)) (wr2 : (⟨S64x40, .f32⟩ : BufTy).Contents (Elt F)) :
    (⟨S100000x40, .f32⟩ : BufTy).Contents (Elt F) :=
  logSoftmaxHost
    (logitsHost (meanDiv (refHidden2 x e wl0 b0 wr0 wl1 b1 wr1) (src (F := F) e) (dst (F := F) e))
      (refHidden2 x e wl0 b0 wr0 wl1 b1 wr1) wl2 b2 wr2)

end Reference

/-- The kernel program's first hidden layer. -/
def kerHidden1 (x : (⟨S100000x64, .f32⟩ : BufTy).Contents (Elt Ideal)) (e : (⟨S2x1600000, .i32⟩ : BufTy).Contents (Elt Ideal))
    (wl0 : (⟨S64x64, .f32⟩ : BufTy).Contents (Elt Ideal)) (b0 : (⟨S64, .f32⟩ : BufTy).Contents (Elt Ideal)) (wr0 : (⟨S64x64, .f32⟩ : BufTy).Contents (Elt Ideal)) :
    (⟨S100000x64, .f32⟩ : BufTy).Contents (Elt Ideal) :=
  reluLayer (meanMul (F := Ideal) x (src (F := Ideal) e) (dst (F := Ideal) e)) x wl0 wr0 (fun q : Fin 64 => b0 (ix1 q))

/-- The kernel program's second hidden layer. -/
def kerHidden2 (x : (⟨S100000x64, .f32⟩ : BufTy).Contents (Elt Ideal)) (e : (⟨S2x1600000, .i32⟩ : BufTy).Contents (Elt Ideal))
    (wl0 : (⟨S64x64, .f32⟩ : BufTy).Contents (Elt Ideal)) (b0 : (⟨S64, .f32⟩ : BufTy).Contents (Elt Ideal)) (wr0 : (⟨S64x64, .f32⟩ : BufTy).Contents (Elt Ideal))
    (wl1 : (⟨S64x64, .f32⟩ : BufTy).Contents (Elt Ideal)) (b1 : (⟨S64, .f32⟩ : BufTy).Contents (Elt Ideal)) (wr1 : (⟨S64x64, .f32⟩ : BufTy).Contents (Elt Ideal)) :
    (⟨S100000x64, .f32⟩ : BufTy).Contents (Elt Ideal) :=
  reluLayer (meanMul (F := Ideal) (kerHidden1 x e wl0 b0 wr0) (src (F := Ideal) e) (dst (F := Ideal) e)) (kerHidden1 x e wl0 b0 wr0)
    wl1 wr1 (fun q : Fin 64 => b1 (ix1 q))

/-- The kernel program's result. -/
def kerOut (x : (⟨S100000x64, .f32⟩ : BufTy).Contents (Elt Ideal)) (e : (⟨S2x1600000, .i32⟩ : BufTy).Contents (Elt Ideal))
    (wl0 : (⟨S64x64, .f32⟩ : BufTy).Contents (Elt Ideal)) (b0 : (⟨S64, .f32⟩ : BufTy).Contents (Elt Ideal)) (wr0 : (⟨S64x64, .f32⟩ : BufTy).Contents (Elt Ideal))
    (wl1 : (⟨S64x64, .f32⟩ : BufTy).Contents (Elt Ideal)) (b1 : (⟨S64, .f32⟩ : BufTy).Contents (Elt Ideal)) (wr1 : (⟨S64x64, .f32⟩ : BufTy).Contents (Elt Ideal))
    (wl2 : (⟨S64x40, .f32⟩ : BufTy).Contents (Elt Ideal)) (b2 : (⟨S40, .f32⟩ : BufTy).Contents (Elt Ideal)) (wr2 : (⟨S64x40, .f32⟩ : BufTy).Contents (Elt Ideal)) :
    (⟨S100000x40, .f32⟩ : BufTy).Contents (Elt Ideal) :=
  logSoftmaxLayer (meanMul (F := Ideal) (kerHidden2 x e wl0 b0 wr0 wl1 b1 wr1) (src (F := Ideal) e) (dst (F := Ideal) e))
    (kerHidden2 x e wl0 b0 wr0 wl1 b1 wr1) wl2 wr2 (fun q : Fin 40 => b2 (ix1 q))

end Cert.Sage

end
-- ==== Proof.KernelValueStretches.lean ====
/-
  What each stretch of host operations between the regions leaves in the buffers that a later part of the program
  reads, from ANY contents the stretch is entered at and at any float instance.

  The first stretch cuts the edge list into its row of sources and its row of destinations and counts each node's
  in-edges; the second clips that count below at one; the third takes the reciprocal of the clipped count, lays it out
  as a column, and forms the first aggregation: the sum of the in-neighbours' rows times that column laid along the
  features. The fourth and the fifth form the same aggregation from the previous layer's rows, reading the two edge
  rows and the column as they stand. Each of the last three also lays a bias vector out as a one-row matrix. A stretch
  leaves alone every buffer that none of its operations has as its result.
-/
import proofs.«102613_j79714593014136_1_alg».proof.Proof.Gen.KernelIdeal.Launch
import proofs.«102613_j79714593014136_1_alg».proof.Proof.SageHost
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem

variable {F : FTy → Type} [FloatOps F]

/-- The neighbours' sum times a given column of per-node factors laid along the features. -/
def aggWith (h : (⟨Cert.ReferenceIdeal.S100000x64, .f32⟩ : BufTy).Contents (Elt F))
    (s d : (⟨Cert.ReferenceIdeal.S1600000, .i32⟩ : BufTy).Contents (Elt F))
    (col : (⟨Cert.ReferenceIdeal.S100000x1, .f32⟩ : BufTy).Contents (Elt F)) :
    (⟨Cert.ReferenceIdeal.S100000x64, .f32⟩ : BufTy).Contents (Elt F) :=
  mulf (Cert.Sage.nbrSum (F := F) h s d)
    (broadcastInDim Cert.ReferenceIdeal.S100000x64 ![0, 1] Cert.ReferenceIdeal.Facts₀.bcast_S100000x1_S100000x64_0_1 col)

/-- The column of reciprocals of a per-node divisor. -/
def recipCol (v : (⟨Cert.ReferenceIdeal.S100000, .f32⟩ : BufTy).Contents (Elt F)) :
    (⟨Cert.ReferenceIdeal.S100000x1, .f32⟩ : BufTy).Contents (Elt F) :=
  broadcastInDim Cert.ReferenceIdeal.S100000x1 ![0] Cert.ReferenceIdeal.Facts₀.bcast_S100000_S100000x1_0
    (Host.divf (broadcastInDim Cert.ReferenceIdeal.S100000 ![] Cert.ReferenceIdeal.Facts₀.bcast_S_S100000
      (constant Cert.ReferenceIdeal.S_ .f32 0x3F800000#32)) v)

/-- The mean as a product is the neighbours' sum times the column of reciprocals of the clipped degree. -/
theorem meanMul_eq_aggWith (h : (⟨Cert.ReferenceIdeal.S100000x64, .f32⟩ : BufTy).Contents (Elt F))
    (s d : (⟨Cert.ReferenceIdeal.S1600000, .i32⟩ : BufTy).Contents (Elt F)) :
    Cert.Sage.meanMul (F := F) h s d = aggWith h s d (recipCol (Cert.Sage.degClipped (F := F) d)) := rfl

variable (W : Valuation τ sig (Elt F))

/-! ## The first stretch: the edge rows and the in-degree -/

theorem ops0_v1 : StableHlo.after (hostOps0 (F := F)) W (Proc.devRef .tc main_v1)
    = Cert.Sage.src (F := F) (W (Proc.devRef .tc main_arg1)) := by
  after_results_simp; rfl

theorem ops0_v3 : StableHlo.after (hostOps0 (F := F)) W (Proc.devRef .tc main_v3)
    = Cert.Sage.dst (F := F) (W (Proc.devRef .tc main_arg1)) := by
  after_results_simp; rfl

theorem ops0_v7 : StableHlo.after (hostOps0 (F := F)) W (Proc.devRef .tc main_v7)
    = Cert.Sage.degree (F := F) (Cert.Sage.dst (F := F) (W (Proc.devRef .tc main_arg1))) := by
  after_results_simp; rfl

theorem ops0_cst_1 : StableHlo.after (hostOps0 (F := F)) W (Proc.devRef .tc main_cst_1)
    = constant Cert.ReferenceIdeal.S_ .f32 0x3F800000#32 := by
  after_results_simp

/-! ## The second stretch: the clipped degree -/

theorem ops0_1_v8 : StableHlo.after (hostOps0_1 (F := F)) W (Proc.devRef .tc main_v8)
    = maximumf (broadcastInDim Cert.ReferenceIdeal.S100000 ![] Cert.ReferenceIdeal.Facts₀.bcast_S_S100000 (W (Proc.devRef .tc main_cst_1)))
        (W (Proc.devRef .tc main_v7)) := by
  after_results_simp; rfl

/-! ## The third stretch: the column of reciprocals, the first aggregation, the first bias row -/

theorem ops0_2_v11 : StableHlo.after (hostOps0_2 (F := F)) W (Proc.devRef .tc main_v11)
    = recipCol (F := F) (W (Proc.devRef .tc main_v8)) := by
  after_results_simp; rfl

theorem ops0_2_v23 : StableHlo.after (hostOps0_2 (F := F)) W (Proc.devRef .tc main_v23)
    = aggWith (F := F) (W (Proc.devRef .tc main_arg0)) (W (Proc.devRef .tc main_v1)) (W (Proc.devRef .tc main_v3))
        (recipCol (F := F) (W (Proc.devRef .tc main_v8))) := by
  after_results_simp; rfl

theorem ops0_2_v24 : StableHlo.after (hostOps0_2 (F := F)) W (Proc.devRef .tc main_v24)
    = shapeCast S1x64 (W (Proc.devRef .tc main_arg3)) shapeCasts_S64_S1x64 := by
  after_results_simp; rfl

/-! ## The fourth stretch: the second aggregation and bias row -/

theorem ops1_v37 : StableHlo.after (hostOps1 (F := F)) W (Proc.devRef .tc main_v37)
    = aggWith (F := F) (W (Proc.devRef .tc main_v25)) (W (Proc.devRef .tc main_v1)) (W (Proc.devRef .tc main_v3))
        (W (Proc.devRef .tc main_v11)) := by
  after_results_simp; rfl

theorem ops1_v38 : StableHlo.after (hostOps1 (F := F)) W (Proc.devRef .tc main_v38)
    = shapeCast S1x64 (W (Proc.devRef .tc main_arg6)) shapeCasts_S64_S1x64 := by
  after_results_simp; rfl

/-! ## The fifth stretch: the third aggregation and bias row -/

theorem ops2_v51 : StableHlo.after (hostOps2 (F := F)) W (Proc.devRef .tc main_v51)
    = aggWith (F := F) (W (Proc.devRef .tc main_v39)) (W (Proc.devRef .tc main_v1)) (W (Proc.devRef .tc main_v3))
        (W (Proc.devRef .tc main_v11)) := by
  after_results_simp; rfl

theorem ops2_v52 : StableHlo.after (hostOps2 (F := F)) W (Proc.devRef .tc main_v52)
    = shapeCast S1x40 (W (Proc.devRef .tc main_arg9)) shapeCasts_S40_S1x40 := by
  after_results_simp; rfl

/-! ## What a stretch leaves alone: every buffer that is no operation's result -/

/-- The results of the first stretch's operations. -/
abbrev res0 : List (Ref sig .tc) :=
  [main_v0, main_v1, main_v2, main_v3, main_cst, main_v4, main_cst_0, main_v5, main_v6, main_v7, main_cst_1]
/-- The results of the second stretch's operations. -/
abbrev res0_1 : List (Ref sig .tc) := [main_call0_v0, main_call0_v1, main_v8]
/-- The results of the third stretch's operations. -/
abbrev res0_2 : List (Ref sig .tc) :=
  [main_cst_2, main_v9, main_v10, main_v11, main_c, main_v12, main_v13, main_c_3, main_v14, main_v15, main_v16, main_v17,
    main_v18, main_cst_4, main_v19, main_v20, main_v21, main_v22, main_v23, main_v24]
/-- The results of the fourth stretch's operations. -/
abbrev res1 : List (Ref sig .tc) :=
  [main_c_5, main_v26, main_v27, main_c_6, main_v28, main_v29, main_v30, main_v31, main_v32, main_cst_7, main_v33, main_v34,
    main_v35, main_v36, main_v37, main_v38]
/-- The results of the fifth stretch's operations. -/
abbrev res2 : List (Ref sig .tc) :=
  [main_c_8, main_v40, main_v41, main_c_9, main_v42, main_v43, main_v44, main_v45, main_v46, main_cst_10, main_v47, main_v48,
    main_v49, main_v50, main_v51, main_v52]

theorem ops0_writes : (hostOps0 (F := F)).Forall fun op => op.writes ⊆ (res0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem ops0_1_writes : (hostOps0_1 (F := F)).Forall fun op => op.writes ⊆ (res0_1.map (Proc.devRef (τ := τ) .tc)).toFinset := by
  simp only [hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem ops0_2_writes : (hostOps0_2 (F := F)).Forall fun op => op.writes ⊆ (res0_2.map (Proc.devRef (τ := τ) .tc)).toFinset := by
  simp only [hostOps0_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem ops1_writes : (hostOps1 (F := F)).Forall fun op => op.writes ⊆ (res1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem ops2_writes : (hostOps2 (F := F)).Forall fun op => op.writes ⊆ (res2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem ops0_keeps {r : Ref sig .tc} (h : r ∉ res0) :
    StableHlo.after (hostOps0 (F := F)) W (Proc.devRef .tc r) = W (Proc.devRef .tc r) :=
  StableHlo.after_of_writes_sub hostOps0 W ops0_writes h

theorem ops0_1_keeps {r : Ref sig .tc} (h : r ∉ res0_1) :
    StableHlo.after (hostOps0_1 (F := F)) W (Proc.devRef .tc r) = W (Proc.devRef .tc r) :=
  StableHlo.after_of_writes_sub hostOps0_1 W ops0_1_writes h

theorem ops0_2_keeps {r : Ref sig .tc} (h : r ∉ res0_2) :
    StableHlo.after (hostOps0_2 (F := F)) W (Proc.devRef .tc r) = W (Proc.devRef .tc r) :=
  StableHlo.after_of_writes_sub hostOps0_2 W ops0_2_writes h

theorem ops1_keeps {r : Ref sig .tc} (h : r ∉ res1) :
    StableHlo.after (hostOps1 (F := F)) W (Proc.devRef .tc r) = W (Proc.devRef .tc r) :=
  StableHlo.after_of_writes_sub hostOps1 W ops1_writes h

theorem ops2_keeps {r : Ref sig .tc} (h : r ∉ res2) :
    StableHlo.after (hostOps2 (F := F)) W (Proc.devRef .tc r) = W (Proc.devRef .tc r) :=
  StableHlo.after_of_writes_sub hostOps2 W ops2_writes h

end Cert.KernelIdeal.Result

end
-- ==== Proof.KernelValue.lean ====
/-
  The result buffer after the kernel program's run, read back through the program: the last region's output array is
  the output layer of what the host operations before it leave, those read the second region's output array, and so
  on down to the arguments. The edge rows and the reciprocal of the clipped degree are computed once, before the first
  region, and every later stretch reads them unchanged.
-/
import proofs.«102613_j79714593014136_1_alg».proof.Proof.Gen.KernelIdeal.Frame
import proofs.«102613_j79714593014136_1_alg».proof.Proof.KRegion0
import proofs.«102613_j79714593014136_1_alg».proof.Proof.KRegion1
import proofs.«102613_j79714593014136_1_alg».proof.Proof.KRegion2
import proofs.«102613_j79714593014136_1_alg».proof.Proof.SageNet
import proofs.«102613_j79714593014136_1_alg».proof.Proof.KernelValueStretches
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem

/-! ## A bias vector laid out as a one-row matrix, read along its row -/

theorem biasRow64 (b : (⟨S64, .f32⟩ : BufTy).Contents (Elt Ideal)) :
    (fun q : Fin 64 => shapeCast S1x64 b shapeCasts_S64_S1x64 (ix2 (0 : Fin 1) q)) = fun q : Fin 64 => b (ix1 q) :=
  funext fun q => shapeCast_a_1a_apply b shapeCasts_S64_S1x64 0 q

theorem biasRow40 (b : (⟨S40, .f32⟩ : BufTy).Contents (Elt Ideal)) :
    (fun q : Fin 40 => shapeCast S1x40 b shapeCasts_S40_S1x40 (ix2 (0 : Fin 1) q)) = fun q : Fin 40 => b (ix1 q) :=
  funext fun q => shapeCast_a_1a_apply b shapeCasts_S40_S1x40 0 q

section Walk

variable (m : (ℓ : Loc nD τ sig) → Buf (Elt Ideal) ℓ) (ρ : Dev nD → PrngReg) (c : Dev nD)

/-! ## A buffer that nothing writes, carried from one boundary of the run to the next -/

variable {r : Ref sig .tc}

theorem step1 (h : r ∉ res0) : W1 (F := Ideal) m ρ c (Proc.devRef .tc r) = m ((c.tc : Thread nD τ).loc r) :=
  ops0_keeps (W0 m ρ c) h
theorem step2 (h : r ∉ res0_1) : W2 (F := Ideal) m ρ c (Proc.devRef .tc r) = W1 m ρ c (Proc.devRef .tc r) :=
  ops0_1_keeps (W1 m ρ c) h
theorem step3 (h : r ∉ res0_2) : W3 (F := Ideal) m ρ c (Proc.devRef .tc r) = W2 m ρ c (Proc.devRef .tc r) :=
  ops0_2_keeps (W2 m ρ c) h
theorem step5 (h : r ∉ res1) : W5 (F := Ideal) m ρ c (Proc.devRef .tc r) = W4 m ρ c (Proc.devRef .tc r) :=
  ops1_keeps (W4 m ρ c) h
theorem step7 (h : r ∉ res2) : W7 (F := Ideal) m ρ c (Proc.devRef .tc r) = W6 m ρ c (Proc.devRef .tc r) :=
  ops2_keeps (W6 m ρ c) h

/-- From the end of the second stretch back to the launch. -/
theorem back2 (h0 : r ∉ res0) (h1 : r ∉ res0_1) :
    W2 (F := Ideal) m ρ c (Proc.devRef .tc r) = m ((c.tc : Thread nD τ).loc r) :=
  (step2 m ρ c h1).trans (step1 m ρ c h0)
/-- From the first region's entry back to the launch. -/
theorem back3 (h0 : r ∉ res0) (h1 : r ∉ res0_1) (h2 : r ∉ res0_2) :
    W3 (F := Ideal) m ρ c (Proc.devRef .tc r) = m ((c.tc : Thread nD τ).loc r) :=
  (step3 m ρ c h2).trans (back2 m ρ c h0 h1)
/-- From the first region's exit back to the launch, for a buffer that is none of its arrays. -/
theorem back4 (h0 : r ∉ res0) (h1 : r ∉ res0_1) (h2 : r ∉ res0_2) (ha : ∀ w, Pipeline.arrRef spec0 w ≠ r) :
    W4 (F := Ideal) m ρ c (Proc.devRef .tc r) = m ((c.tc : Thread nD τ).loc r) :=
  (W4_of_ne m ρ c r ha).trans (back3 m ρ c h0 h1 h2)
/-- From the second region's entry back to the launch. -/
theorem back5 (h0 : r ∉ res0) (h1 : r ∉ res0_1) (h2 : r ∉ res0_2) (ha : ∀ w, Pipeline.arrRef spec0 w ≠ r) (h3 : r ∉ res1) :
    W5 (F := Ideal) m ρ c (Proc.devRef .tc r) = m ((c.tc : Thread nD τ).loc r) :=
  (step5 m ρ c h3).trans (back4 m ρ c h0 h1 h2 ha)
/-- From the second region's exit back to the launch, for a buffer that is no array of the first two regions. -/
theorem back6 (h0 : r ∉ res0) (h1 : r ∉ res0_1) (h2 : r ∉ res0_2) (ha : ∀ w, Pipeline.arrRef spec0 w ≠ r) (h3 : r ∉ res1)
    (hb : ∀ w, Pipeline.arrRef spec1 w ≠ r) :
    W6 (F := Ideal) m ρ c (Proc.devRef .tc r) = m ((c.tc : Thread nD τ).loc r) :=
  (W6_of_ne m ρ c r hb).trans (back5 m ρ c h0 h1 h2 ha h3)
/-- From the third region's entry back to the launch. -/
theorem back7 (h0 : r ∉ res0) (h1 : r ∉ res0_1) (h2 : r ∉ res0_2) (ha : ∀ w, Pipeline.arrRef spec0 w ≠ r) (h3 : r ∉ res1)
    (hb : ∀ w, Pipeline.arrRef spec1 w ≠ r) (h4 : r ∉ res2) :
    W7 (F := Ideal) m ρ c (Proc.devRef .tc r) = m ((c.tc : Thread nD τ).loc r) :=
  (step7 m ρ c h4).trans (back6 m ρ c h0 h1 h2 ha h3 hb)

/-- From the first region's exit back to its entry and on to the end of the first stretch, for a buffer written in
    the first stretch only. -/
theorem mid4 (h1 : r ∉ res0_1) (h2 : r ∉ res0_2) (ha : ∀ w, Pipeline.arrRef spec0 w ≠ r) :
    W4 (F := Ideal) m ρ c (Proc.devRef .tc r) = W1 m ρ c (Proc.devRef .tc r) :=
  (W4_of_ne m ρ c r ha).trans ((step3 m ρ c h2).trans (step2 m ρ c h1))
theorem mid6 (h1 : r ∉ res0_1) (h2 : r ∉ res0_2) (ha : ∀ w, Pipeline.arrRef spec0 w ≠ r) (h3 : r ∉ res1)
    (hb : ∀ w, Pipeline.arrRef spec1 w ≠ r) :
    W6 (F := Ideal) m ρ c (Proc.devRef .tc r) = W1 m ρ c (Proc.devRef .tc r) :=
  (W6_of_ne m ρ c r hb).trans ((step5 m ρ c h3).trans (mid4 m ρ c h1 h2 ha))

/-- From the second region's exit back to the first region's entry, for a buffer written in the third stretch. -/
theorem late6 (ha : ∀ w, Pipeline.arrRef spec0 w ≠ r) (h3 : r ∉ res1) (hb : ∀ w, Pipeline.arrRef spec1 w ≠ r) :
    W6 (F := Ideal) m ρ c (Proc.devRef .tc r) = W3 m ρ c (Proc.devRef .tc r) :=
  (W6_of_ne m ρ c r hb).trans ((step5 m ρ c h3).trans (W4_of_ne m ρ c r ha))

end Walk

section Values

variable (m : (ℓ : Loc nD τ sig) → Buf (Elt Ideal) ℓ) (ρ : Dev nD → PrngReg) (c : Dev nD)

/-! ## The edge rows, the clipped degree and the column of its reciprocals -/

theorem W1_v1 : W1 (F := Ideal) m ρ c (Proc.devRef .tc main_v1)
    = Cert.Sage.src (F := Ideal) (m ((c.tc : Thread nD τ).loc main_arg1)) :=
  ops0_v1 (W0 m ρ c)

theorem W1_v3 : W1 (F := Ideal) m ρ c (Proc.devRef .tc main_v3)
    = Cert.Sage.dst (F := Ideal) (m ((c.tc : Thread nD τ).loc main_arg1)) :=
  ops0_v3 (W0 m ρ c)

theorem W1_v7 : W1 (F := Ideal) m ρ c (Proc.devRef .tc main_v7)
    = Cert.Sage.degree (F := Ideal) (Cert.Sage.dst (F := Ideal) (m ((c.tc : Thread nD τ).loc main_arg1))) :=
  ops0_v7 (W0 m ρ c)

theorem W1_cst_1 : W1 (F := Ideal) m ρ c (Proc.devRef .tc main_cst_1)
    = constant (F := Ideal) Cert.ReferenceIdeal.S_ .f32 0x3F800000#32 :=
  ops0_cst_1 (W0 m ρ c)

theorem W2_v8 : W2 (F := Ideal) m ρ c (Proc.devRef .tc main_v8)
    = Cert.Sage.degClipped (F := Ideal) (Cert.Sage.dst (F := Ideal) (m ((c.tc : Thread nD τ).loc main_arg1))) := by
  refine (ops0_1_v8 (F := Ideal) (W1 m ρ c)).trans ?_
  rw [W1_cst_1 m ρ c, W1_v7 m ρ c]
  rfl

theorem W2_v1 : W2 (F := Ideal) m ρ c (Proc.devRef .tc main_v1)
    = Cert.Sage.src (F := Ideal) (m ((c.tc : Thread nD τ).loc main_arg1)) :=
  (step2 m ρ c (by decide)).trans (W1_v1 m ρ c)

theorem W2_v3 : W2 (F := Ideal) m ρ c (Proc.devRef .tc main_v3)
    = Cert.Sage.dst (F := Ideal) (m ((c.tc : Thread nD τ).loc main_arg1)) :=
  (step2 m ρ c (by decide)).trans (W1_v3 m ρ c)

theorem W3_v11 : W3 (F := Ideal) m ρ c (Proc.devRef .tc main_v11)
    = recipCol (F := Ideal) (Cert.Sage.degClipped (F := Ideal) (Cert.Sage.dst (F := Ideal) (m ((c.tc : Thread nD τ).loc main_arg1)))) :=
  (ops0_2_v11 (F := Ideal) (W2 m ρ c)).trans (congrArg (recipCol (F := Ideal)) (W2_v8 m ρ c))

/-! ## The first layer -/

theorem W3_v23 : W3 (F := Ideal) m ρ c (Proc.devRef .tc main_v23)
    = Cert.Sage.meanMul (F := Ideal) (m ((c.tc : Thread nD τ).loc main_arg0))
        (Cert.Sage.src (F := Ideal) (m ((c.tc : Thread nD τ).loc main_arg1)))
        (Cert.Sage.dst (F := Ideal) (m ((c.tc : Thread nD τ).loc main_arg1))) := by
  refine (ops0_2_v23 (F := Ideal) (W2 m ρ c)).trans ?_
  rw [W2_v1 m ρ c, W2_v3 m ρ c, W2_v8 m ρ c, back2 m ρ c (r := main_arg0) (by decide) (by decide)]
  exact (meanMul_eq_aggWith _ _ _).symm

theorem W3_v24 : W3 (F := Ideal) m ρ c (Proc.devRef .tc main_v24)
    = shapeCast S1x64 (m ((c.tc : Thread nD τ).loc main_arg3)) shapeCasts_S64_S1x64 := by
  refine (ops0_2_v24 (F := Ideal) (W2 m ρ c)).trans ?_
  rw [back2 m ρ c (r := main_arg3) (by decide) (by decide)]

/-- The first region's output array after its run is the first hidden layer of the arguments. -/
theorem W4_v25 : W4 (F := Ideal) m ρ c (Proc.devRef .tc main_v25)
    = Cert.Sage.kerHidden1 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine ((W4_arr m ρ c 5).trans (Cert.KernelIdeal.Region0.array_eq (V3 m ρ) c)).trans ?_
  show Cert.Sage.reluLayer (W3 (F := Ideal) m ρ c (Proc.devRef .tc main_v23)) (W3 (F := Ideal) m ρ c (Proc.devRef .tc main_arg0))
      (W3 (F := Ideal) m ρ c (Proc.devRef .tc main_arg2)) (W3 (F := Ideal) m ρ c (Proc.devRef .tc main_arg4))
      (fun q : Fin 64 => W3 (F := Ideal) m ρ c (Proc.devRef .tc main_v24) (ix2 (0 : Fin 1) q)) = _
  rw [W3_v23 m ρ c, W3_v24 m ρ c, back3 m ρ c (r := main_arg0) (by decide) (by decide) (by decide),
    back3 m ρ c (r := main_arg2) (by decide) (by decide) (by decide),
    back3 m ρ c (r := main_arg4) (by decide) (by decide) (by decide), biasRow64]
  rfl

/-! ## The edge rows and the column at the later boundaries -/

theorem W4_v1 : W4 (F := Ideal) m ρ c (Proc.devRef .tc main_v1)
    = Cert.Sage.src (F := Ideal) (m ((c.tc : Thread nD τ).loc main_arg1)) :=
  (mid4 m ρ c (by decide) (by decide) (by decide)).trans (W1_v1 m ρ c)

theorem W4_v3 : W4 (F := Ideal) m ρ c (Proc.devRef .tc main_v3)
    = Cert.Sage.dst (F := Ideal) (m ((c.tc : Thread nD τ).loc main_arg1)) :=
  (mid4 m ρ c (by decide) (by decide) (by decide)).trans (W1_v3 m ρ c)

theorem W4_v11 : W4 (F := Ideal) m ρ c (Proc.devRef .tc main_v11)
    = recipCol (F := Ideal) (Cert.Sage.degClipped (F := Ideal) (Cert.Sage.dst (F := Ideal) (m ((c.tc : Thread nD τ).loc main_arg1)))) :=
  (W4_of_ne m ρ c main_v11 (by decide)).trans (W3_v11 m ρ c)

theorem W6_v1 : W6 (F := Ideal) m ρ c (Proc.devRef .tc main_v1)
    = Cert.Sage.src (F := Ideal) (m ((c.tc : Thread nD τ).loc main_arg1)) :=
  (mid6 m ρ c (by decide) (by decide) (by decide) (by decide) (by decide)).trans (W1_v1 m ρ c)

theorem W6_v3 : W6 (F := Ideal) m ρ c (Proc.devRef .tc main_v3)
    = Cert.Sage.dst (F := Ideal) (m ((c.tc : Thread nD τ).loc main_arg1)) :=
  (mid6 m ρ c (by decide) (by decide) (by decide) (by decide) (by decide)).trans (W1_v3 m ρ c)

theorem W6_v11 : W6 (F := Ideal) m ρ c (Proc.devRef .tc main_v11)
    = recipCol (F := Ideal) (Cert.Sage.degClipped (F := Ideal) (Cert.Sage.dst (F := Ideal) (m ((c.tc : Thread nD τ).loc main_arg1)))) :=
  (late6 m ρ c (by decide) (by decide) (by decide)).trans (W3_v11 m ρ c)

/-! ## The second layer -/

theorem W5_v37 : W5 (F := Ideal) m ρ c (Proc.devRef .tc main_v37)
    = Cert.Sage.meanMul (F := Ideal)
        (Cert.Sage.kerHidden1 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)))
        (Cert.Sage.src (F := Ideal) (m ((c.tc : Thread nD τ).loc main_arg1)))
        (Cert.Sage.dst (F := Ideal) (m ((c.tc : Thread nD τ).loc main_arg1))) := by
  refine (ops1_v37 (F := Ideal) (W4 m ρ c)).trans ?_
  rw [W4_v25 m ρ c, W4_v1 m ρ c, W4_v3 m ρ c, W4_v11 m ρ c]
  exact (meanMul_eq_aggWith _ _ _).symm

theorem W5_v38 : W5 (F := Ideal) m ρ c (Proc.devRef .tc main_v38)
    = shapeCast S1x64 (m ((c.tc : Thread nD τ).loc main_arg6)) shapeCasts_S64_S1x64 := by
  refine (ops1_v38 (F := Ideal) (W4 m ρ c)).trans ?_
  rw [back4 m ρ c (r := main_arg6) (by decide) (by decide) (by decide) (by decide)]

theorem W5_v25 : W5 (F := Ideal) m ρ c (Proc.devRef .tc main_v25)
    = Cert.Sage.kerHidden1 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) :=
  (step5 m ρ c (by decide)).trans (W4_v25 m ρ c)

/-- The second region's output array after its run is the second hidden layer of the arguments. -/
theorem W6_v39 : W6 (F := Ideal) m ρ c (Proc.devRef .tc main_v39)
    = Cert.Sage.kerHidden2 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  refine ((W6_arr m ρ c 5).trans (Cert.KernelIdeal.Region1.array_eq (V5 m ρ) c)).trans ?_
  show Cert.Sage.reluLayer (W5 (F := Ideal) m ρ c (Proc.devRef .tc main_v37)) (W5 (F := Ideal) m ρ c (Proc.devRef .tc main_v25))
      (W5 (F := Ideal) m ρ c (Proc.devRef .tc main_arg5)) (W5 (F := Ideal) m ρ c (Proc.devRef .tc main_arg7))
      (fun q : Fin 64 => W5 (F := Ideal) m ρ c (Proc.devRef .tc main_v38) (ix2 (0 : Fin 1) q)) = _
  rw [W5_v37 m ρ c, W5_v38 m ρ c, W5_v25 m ρ c,
    back5 m ρ c (r := main_arg5) (by decide) (by decide) (by decide) (by decide) (by decide),
    back5 m ρ c (r := main_arg7) (by decide) (by decide) (by decide) (by decide) (by decide), biasRow64]
  rfl

/-! ## The third layer -/

theorem W7_v51 : W7 (F := Ideal) m ρ c (Proc.devRef .tc main_v51)
    = Cert.Sage.meanMul (F := Ideal)
        (Cert.Sage.kerHidden2 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)))
        (Cert.Sage.src (F := Ideal) (m ((c.tc : Thread nD τ).loc main_arg1)))
        (Cert.Sage.dst (F := Ideal) (m ((c.tc : Thread nD τ).loc main_arg1))) := by
  refine (ops2_v51 (F := Ideal) (W6 m ρ c)).trans ?_
  rw [W6_v39 m ρ c, W6_v1 m ρ c, W6_v3 m ρ c, W6_v11 m ρ c]
  exact (meanMul_eq_aggWith _ _ _).symm

theorem W7_v52 : W7 (F := Ideal) m ρ c (Proc.devRef .tc main_v52)
    = shapeCast S1x40 (m ((c.tc : Thread nD τ).loc main_arg9)) shapeCasts_S40_S1x40 := by
  refine (ops2_v52 (F := Ideal) (W6 m ρ c)).trans ?_
  rw [back6 m ρ c (r := main_arg9) (by decide) (by decide) (by decide) (by decide) (by decide) (by decide)]

theorem W7_v39 : W7 (F := Ideal) m ρ c (Proc.devRef .tc main_v39)
    = Cert.Sage.kerHidden2 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) :=
  (step7 m ρ c (by decide)).trans (W6_v39 m ρ c)

end Values

/-- The result buffer at the last boundary of the run is the three layers of the arguments. -/
theorem result_eq (m : (ℓ : Loc nD τ sig) → Buf (Elt Ideal) ℓ) (ρ : Dev nD → PrngReg) (c : Dev nD) :
    W8 (F := Ideal) m ρ c (Proc.devRef .tc main_v53)
      = Cert.Sage.kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine ((W8_arr m ρ c 5).trans (Cert.KernelIdeal.Region2.array_eq (V7 m ρ) c)).trans ?_
  show Cert.Sage.logSoftmaxLayer (W7 (F := Ideal) m ρ c (Proc.devRef .tc main_v51)) (W7 (F := Ideal) m ρ c (Proc.devRef .tc main_v39))
      (W7 (F := Ideal) m ρ c (Proc.devRef .tc main_arg8)) (W7 (F := Ideal) m ρ c (Proc.devRef .tc main_arg10))
      (fun q : Fin 40 => W7 (F := Ideal) m ρ c (Proc.devRef .tc main_v52) (ix2 (0 : Fin 1) q)) = _
  rw [W7_v51 m ρ c, W7_v52 m ρ c, W7_v39 m ρ c,
    back7 m ρ c (r := main_arg8) (by decide) (by decide) (by decide) (by decide) (by decide) (by decide) (by decide),
    back7 m ρ c (r := main_arg10) (by decide) (by decide) (by decide) (by decide) (by decide) (by decide) (by decide), biasRow40]
  rfl

end Cert.KernelIdeal.Result

end
-- ==== Proof.RefValue.lean ====
/-
  The reference's result buffer after its run, read back through its operations: the fold of the operations over the
  launch contents, at the result, is the three layers of the arguments in the reference's own spelling.

  The operations are read in three stretches, one per layer: the first ends at the first hidden layer's rows, the second
  at the second hidden layer's rows, the third at the result. Over an arbitrary valuation of the buffers, each stretch's
  last buffer is one layer of the buffers the stretch starts from: a hidden layer of the mean of the neighbours' rows,
  or the row-wise log-softmax of the output layer's sums; the edge list's two rows are read once, in the first stretch,
  and every later stretch leaves them, and the weights it has not yet used, as they were. The whole fold is the fold of
  the third stretch over the fold of the second over the fold of the first, so the result is the three layers nested.
-/
import proofs.«102613_j79714593014136_1_alg».proof.Proof.RefRun
import proofs.«102613_j79714593014136_1_alg».proof.Proof.SageNet
import Idealize.ShloMosaic.Lib.StableHlo.Run
import Idealize.ShloMosaic.Lib.Pipeline.Frame

noncomputable section

namespace Cert.ReferenceIdeal.Result

open Cert.ReferenceIdeal Cert.ReferenceIdeal.Gen Idealize.ShloMosaic Idealize.ShloMosaic.TcCoe Idealize.SL.Sem Idealize.ShloMosaic.StableHlo

variable {F : FTy → Type} [FloatOps F]

/-- A value moved to a typed reference's buffer type and back is the value. -/
theorem ofBuf_toBuf {T : BufTy} (x : TRef sig T) (v : T.Contents (Elt F)) : x.ofBuf (x.toBuf v) = v := by
  simp only [TRef.ofBuf, TRef.toBuf, cast_cast, cast_eq]

/-- The first stretch: the edge list's two rows, the neighbours' mean of the input rows, the first hidden layer. -/
abbrev opsL0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_c (constantI S_ 32 0#32),
    unary main_c main_v8 (broadcastInDim S1600000 ![] bcast_S_S1600000 : (⟨S_, .i32⟩ : BufTy).Contents (Elt F) → (⟨S1600000, .i32⟩ : BufTy).Contents (Elt F)),
    binary main_v1 main_v8 main_v9 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 100000#32),
    unary main_c_1 main_v10 (broadcastInDim S1600000 ![] bcast_S_S1600000 : (⟨S_, .i32⟩ : BufTy).Contents (Elt F) → (⟨S1600000, .i32⟩ : BufTy).Contents (Elt F)),
    binary main_v1 main_v10 main_v11 (addi : (⟨S1600000, .i32⟩ : BufTy).Contents (Elt F) → (⟨S1600000, .i32⟩ : BufTy).Contents (Elt F) → (⟨S1600000, .i32⟩ : BufTy).Contents (Elt F)),
    ternary main_v9 main_v11 main_v1 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v12 main_v13 (broadcastInDim S1600000x1 ![0] bcast_S1600000_S1600000x1_0 : (⟨S1600000, .i32⟩ : BufTy).Contents (Elt F) → (⟨S1600000x1, .i32⟩ : BufTy).Contents (Elt F)),
    binary main_arg0 main_v13 main_v14 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_2 (constant S_ .f32 0x00000000#32),
    unary main_cst_2 main_v15 (broadcastInDim S100000x64 ![] bcast_S_S100000x64 : (⟨S_, .f32⟩ : BufTy).Contents (Elt F) → (⟨S100000x64, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.binary (TRef.of (T := ⟨S100000, .f32⟩) main_call0_v1) (TRef.of (T := ⟨S100000, .f32⟩) main_v7) (TRef.of (T := ⟨S100000, .f32⟩) main_v18) maximumf,
    unary main_v18 main_v19 (broadcastInDim S100000x1 ![0] bcast_S100000_S100000x1_0 : (⟨S100000, .f32⟩ : BufTy).Contents (Elt F) → (⟨S100000x1, .f32⟩ : BufTy).Contents (Elt F)),
    unary main_v19 main_v20 (broadcastInDim S100000x64 ![0, 1] bcast_S100000x1_S100000x64_0_1 : (⟨S100000x1, .f32⟩ : BufTy).Contents (Elt F) → (⟨S100000x64, .f32⟩ : BufTy).Contents (Elt F)),
    binary main_v17 main_v20 main_v21 (Host.divf : (⟨S100000x64, .f32⟩ : BufTy).Contents (Elt F) → (⟨S100000x64, .f32⟩ : BufTy).Contents (Elt F) → (⟨S100000x64, .f32⟩ : BufTy).Contents (Elt F)),
    binary main_v21 main_arg2 main_v22 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v23 (broadcastInDim S1x64 ![1] bcast_S64_S1x64_1 : (⟨S64, .f32⟩ : BufTy).Contents (Elt F) → (⟨S1x64, .f32⟩ : BufTy).Contents (Elt F)),
    unary main_v23 main_v24 (broadcastInDim S100000x64 ![0, 1] bcast_S1x64_S100000x64_0_1 : (⟨S1x64, .f32⟩ : BufTy).Contents (Elt F) → (⟨S100000x64, .f32⟩ : BufTy).Contents (Elt F)),
    binary main_v22 main_v24 main_v25 (addf : (⟨S100000x64, .f32⟩ : BufTy).Contents (Elt F) → (⟨S100000x64, .f32⟩ : BufTy).Contents (Elt F) → (⟨S100000x64, .f32⟩ : BufTy).Contents (Elt F)),
    binary main_arg0 main_arg4 main_v26 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v25 main_v26 main_v27 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v27) (TRef.of (T := ⟨S100000x64, .f32⟩) main_call1_v0) (TRef.of (T := ⟨S100000x64, .f32⟩) main_v28) maximumf ]

/-- After the first stretch the source nodes are row 0 of the edge list. -/
theorem L0_v1 (W : Valuation τ sig (Elt F)) :
    after (opsL0 (F := F)) W (Proc.devRef .tc main_v1) = Cert.Sage.src (W (Proc.devRef .tc main_arg1)) := by
  after_results_simp
  rfl

/-- After the first stretch the destination nodes are row 1 of the edge list. -/
theorem L0_v3 (W : Valuation τ sig (Elt F)) :
    after (opsL0 (F := F)) W (Proc.devRef .tc main_v3) = Cert.Sage.dst (W (Proc.devRef .tc main_arg1)) := by
  after_results_simp
  rfl

/-- The first stretch writes no weight of a later layer. -/
theorem L0_main_arg5 (W : Valuation τ sig (Elt F)) :
    after (opsL0 (F := F)) W (Proc.devRef .tc main_arg5) = W (Proc.devRef .tc main_arg5) := by
  after_results_simp

/-- The first stretch writes no weight of a later layer. -/
theorem L0_main_arg6 (W : Valuation τ sig (Elt F)) :
    after (opsL0 (F := F)) W (Proc.devRef .tc main_arg6) = W (Proc.devRef .tc main_arg6) := by
  after_results_simp

/-- The first stretch writes no weight of a later layer. -/
theorem L0_main_arg7 (W : Valuation τ sig (Elt F)) :
    after (opsL0 (F := F)) W (Proc.devRef .tc main_arg7) = W (Proc.devRef .tc main_arg7) := by
  after_results_simp

/-- The first stretch writes no weight of a later layer. -/
theorem L0_main_arg8 (W : Valuation τ sig (Elt F)) :
    after (opsL0 (F := F)) W (Proc.devRef .tc main_arg8) = W (Proc.devRef .tc main_arg8) := by
  after_results_simp

/-- The first stretch writes no weight of a later layer. -/
theorem L0_main_arg9 (W : Valuation τ sig (Elt F)) :
    after (opsL0 (F := F)) W (Proc.devRef .tc main_arg9) = W (Proc.devRef .tc main_arg9) := by
  after_results_simp

/-- The first stretch writes no weight of a later layer. -/
theorem L0_main_arg10 (W : Valuation τ sig (Elt F)) :
    after (opsL0 (F := F)) W (Proc.devRef .tc main_arg10) = W (Proc.devRef .tc main_arg10) := by
  after_results_simp

/-- After the first stretch: the first hidden layer of the input rows and of their neighbours' mean. -/
theorem L0_v28 (W : Valuation τ sig (Elt F)) :
    after (opsL0 (F := F)) W (Proc.devRef .tc main_v28)
      = Cert.Sage.hiddenHost (Cert.Sage.meanDiv (W (Proc.devRef .tc main_arg0)) (Cert.Sage.src (W (Proc.devRef .tc main_arg1))) (Cert.Sage.dst (W (Proc.devRef .tc main_arg1))))
          (W (Proc.devRef .tc main_arg0)) (W (Proc.devRef .tc main_arg2)) (W (Proc.devRef .tc main_arg3)) (W (Proc.devRef .tc main_arg4)) := by
  after_results_simp
  simp only [ofBuf_toBuf]
  rfl

/-- The second stretch: the neighbours' mean of the first hidden layer's rows, the second hidden layer. -/
abbrev opsL1 : List (HloOp τ sig (Elt F)) :=
  [ nullary main_cst_4 (constant S_ .f32 0x3F800000#32),
    unary main_cst_4 main_v29 (broadcastInDim S1600000 ![] bcast_S_S1600000 : (⟨S_, .f32⟩ : BufTy).Contents (Elt F) → (⟨S1600000, .f32⟩ : BufTy).Contents (Elt F)),
    nullary main_cst_5 (constant S_ .f32 0x00000000#32),
    unary main_cst_5 main_v30 (broadcastInDim S100000 ![] bcast_S_S100000 : (⟨S_, .f32⟩ : BufTy).Contents (Elt F) → (⟨S100000, .f32⟩ : BufTy).Contents (Elt F)),
    unary main_v3 main_v31 (broadcastInDim S1600000x1 ![0] bcast_S1600000_S1600000x1_0 : (⟨S1600000, .i32⟩ : BufTy).Contents (Elt F) → (⟨S1600000x1, .i32⟩ : BufTy).Contents (Elt F)),
    ternary main_v30 main_v31 main_v29 main_v32 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_c_6 (constantI S_ 32 0#32),
    unary main_c_6 main_v33 (broadcastInDim S1600000 ![] bcast_S_S1600000 : (⟨S_, .i32⟩ : BufTy).Contents (Elt F) → (⟨S1600000, .i32⟩ : BufTy).Contents (Elt F)),
    binary main_v1 main_v33 main_v34 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v35 (broadcastInDim S1600000 ![] bcast_S_S1600000 : (⟨S_, .i32⟩ : BufTy).Contents (Elt F) → (⟨S1600000, .i32⟩ : BufTy).Contents (Elt F)),
    binary main_v1 main_v35 main_v36 (addi : (⟨S1600000, .i32⟩ : BufTy).Contents (Elt F) → (⟨S1600000, .i32⟩ : BufTy).Contents (Elt F) → (⟨S1600000, .i32⟩ : BufTy).Contents (Elt F)),
    ternary main_v34 main_v36 main_v1 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v37 main_v38 (broadcastInDim S1600000x1 ![0] bcast_S1600000_S1600000x1_0 : (⟨S1600000, .i32⟩ : BufTy).Contents (Elt F) → (⟨S1600000x1, .i32⟩ : BufTy).Contents (Elt F)),
    binary main_v28 main_v38 main_v39 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_8 (constant S_ .f32 0x00000000#32),
    unary main_cst_8 main_v40 (broadcastInDim S100000x64 ![] bcast_S_S100000x64 : (⟨S_, .f32⟩ : BufTy).Contents (Elt F) → (⟨S100000x64, .f32⟩ : BufTy).Contents (Elt F)),
    unary main_v3 main_v41 (broadcastInDim S1600000x1 ![0] bcast_S1600000_S1600000x1_0 : (⟨S1600000, .i32⟩ : BufTy).Contents (Elt F) → (⟨S1600000x1, .i32⟩ : BufTy).Contents (Elt F)),
    ternary main_v40 main_v41 main_v39 main_v42 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_9 (constant S_ .f32 0x3F800000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_v32) (TRef.of (T := ⟨S100000, .f32⟩) main_v43) maximumf,
    unary main_v43 main_v44 (broadcastInDim S100000x1 ![0] bcast_S100000_S100000x1_0 : (⟨S100000, .f32⟩ : BufTy).Contents (Elt F) → (⟨S100000x1, .f32⟩ : BufTy).Contents (Elt F)),
    unary main_v44 main_v45 (broadcastInDim S100000x64 ![0, 1] bcast_S100000x1_S100000x64_0_1 : (⟨S100000x1, .f32⟩ : BufTy).Contents (Elt F) → (⟨S100000x64, .f32⟩ : BufTy).Contents (Elt F)),
    binary main_v42 main_v45 main_v46 (Host.divf : (⟨S100000x64, .f32⟩ : BufTy).Contents (Elt F) → (⟨S100000x64, .f32⟩ : BufTy).Contents (Elt F) → (⟨S100000x64, .f32⟩ : BufTy).Contents (Elt F)),
    binary main_v46 main_arg5 main_v47 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v48 (broadcastInDim S1x64 ![1] bcast_S64_S1x64_1 : (⟨S64, .f32⟩ : BufTy).Contents (Elt F) → (⟨S1x64, .f32⟩ : BufTy).Contents (Elt F)),
    unary main_v48 main_v49 (broadcastInDim S100000x64 ![0, 1] bcast_S1x64_S100000x64_0_1 : (⟨S1x64, .f32⟩ : BufTy).Contents (Elt F) → (⟨S100000x64, .f32⟩ : BufTy).Contents (Elt F)),
    binary main_v47 main_v49 main_v50 (addf : (⟨S100000x64, .f32⟩ : BufTy).Contents (Elt F) → (⟨S100000x64, .f32⟩ : BufTy).Contents (Elt F) → (⟨S100000x64, .f32⟩ : BufTy).Contents (Elt F)),
    binary main_v28 main_arg7 main_v51 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v50 main_v51 main_v52 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v52) (TRef.of (T := ⟨S100000x64, .f32⟩) main_call3_v0) (TRef.of (T := ⟨S100000x64, .f32⟩) main_v53) maximumf ]

/-- The second stretch leaves the edge list's rows as they were. -/
theorem L1_main_v1 (W : Valuation τ sig (Elt F)) :
    after (opsL1 (F := F)) W (Proc.devRef .tc main_v1) = W (Proc.devRef .tc main_v1) := by
  after_results_simp

/-- The second stretch leaves the edge list's rows as they were. -/
theorem L1_main_v3 (W : Valuation τ sig (Elt F)) :
    after (opsL1 (F := F)) W (Proc.devRef .tc main_v3) = W (Proc.devRef .tc main_v3) := by
  after_results_simp

/-- The second stretch writes no weight of the output layer. -/
theorem L1_main_arg8 (W : Valuation τ sig (Elt F)) :
    after (opsL1 (F := F)) W (Proc.devRef .tc main_arg8) = W (Proc.devRef .tc main_arg8) := by
  after_results_simp

/-- The second stretch writes no weight of the output layer. -/
theorem L1_main_arg9 (W : Valuation τ sig (Elt F)) :
    after (opsL1 (F := F)) W (Proc.devRef .tc main_arg9) = W (Proc.devRef .tc main_arg9) := by
  after_results_simp

/-- The second stretch writes no weight of the output layer. -/
theorem L1_main_arg10 (W : Valuation τ sig (Elt F)) :
    after (opsL1 (F := F)) W (Proc.devRef .tc main_arg10) = W (Proc.devRef .tc main_arg10) := by
  after_results_simp

/-- After the second stretch: the second hidden layer of the first's rows and of their neighbours' mean. -/
theorem L1_v53 (W : Valuation τ sig (Elt F)) :
    after (opsL1 (F := F)) W (Proc.devRef .tc main_v53)
      = Cert.Sage.hiddenHost (Cert.Sage.meanDiv (W (Proc.devRef .tc main_v28)) (W (Proc.devRef .tc main_v1)) (W (Proc.devRef .tc main_v3)))
          (W (Proc.devRef .tc main_v28)) (W (Proc.devRef .tc main_arg5)) (W (Proc.devRef .tc main_arg6)) (W (Proc.devRef .tc main_arg7)) := by
  after_results_simp
  simp only [ofBuf_toBuf]
  rfl

/-- The third stretch: the neighbours' mean of the second hidden layer's rows, the output layer's sums, the row-wise
    log-softmax. -/
abbrev opsL2 : List (HloOp τ sig (Elt F)) :=
  [ nullary main_cst_10 (constant S_ .f32 0x3F800000#32),
    unary main_cst_10 main_v54 (broadcastInDim S1600000 ![] bcast_S_S1600000 : (⟨S_, .f32⟩ : BufTy).Contents (Elt F) → (⟨S1600000, .f32⟩ : BufTy).Contents (Elt F)),
    nullary main_cst_11 (constant S_ .f32 0x00000000#32),
    unary main_cst_11 main_v55 (broadcastInDim S100000 ![] bcast_S_S100000 : (⟨S_, .f32⟩ : BufTy).Contents (Elt F) → (⟨S100000, .f32⟩ : BufTy).Contents (Elt F)),
    unary main_v3 main_v56 (broadcastInDim S1600000x1 ![0] bcast_S1600000_S1600000x1_0 : (⟨S1600000, .i32⟩ : BufTy).Contents (Elt F) → (⟨S1600000x1, .i32⟩ : BufTy).Contents (Elt F)),
    ternary main_v55 main_v56 main_v54 main_v57 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_c_12 (constantI S_ 32 0#32),
    unary main_c_12 main_v58 (broadcastInDim S1600000 ![] bcast_S_S1600000 : (⟨S_, .i32⟩ : BufTy).Contents (Elt F) → (⟨S1600000, .i32⟩ : BufTy).Contents (Elt F)),
    binary main_v1 main_v58 main_v59 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v60 (broadcastInDim S1600000 ![] bcast_S_S1600000 : (⟨S_, .i32⟩ : BufTy).Contents (Elt F) → (⟨S1600000, .i32⟩ : BufTy).Contents (Elt F)),
    binary main_v1 main_v60 main_v61 (addi : (⟨S1600000, .i32⟩ : BufTy).Contents (Elt F) → (⟨S1600000, .i32⟩ : BufTy).Contents (Elt F) → (⟨S1600000, .i32⟩ : BufTy).Contents (Elt F)),
    ternary main_v59 main_v61 main_v1 main_v62 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v62 main_v63 (broadcastInDim S1600000x1 ![0] bcast_S1600000_S1600000x1_0 : (⟨S1600000, .i32⟩ : BufTy).Contents (Elt F) → (⟨S1600000x1, .i32⟩ : BufTy).Contents (Elt F)),
    binary main_v53 main_v63 main_v64 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_14 (constant S_ .f32 0x00000000#32),
    unary main_cst_14 main_v65 (broadcastInDim S100000x64 ![] bcast_S_S100000x64 : (⟨S_, .f32⟩ : BufTy).Contents (Elt F) → (⟨S100000x64, .f32⟩ : BufTy).Contents (Elt F)),
    unary main_v3 main_v66 (broadcastInDim S1600000x1 ![0] bcast_S1600000_S1600000x1_0 : (⟨S1600000, .i32⟩ : BufTy).Contents (Elt F) → (⟨S1600000x1, .i32⟩ : BufTy).Contents (Elt F)),
    ternary main_v65 main_v66 main_v64 main_v67 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_15 (constant S_ .f32 0x3F800000#32),
    TRef.unary (TRef.of (T := ⟨S_, .f32⟩) main_cst_15) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_v57) (TRef.of (T := ⟨S100000, .f32⟩) main_v68) maximumf,
    unary main_v68 main_v69 (broadcastInDim S100000x1 ![0] bcast_S100000_S100000x1_0 : (⟨S100000, .f32⟩ : BufTy).Contents (Elt F) → (⟨S100000x1, .f32⟩ : BufTy).Contents (Elt F)),
    unary main_v69 main_v70 (broadcastInDim S100000x64 ![0, 1] bcast_S100000x1_S100000x64_0_1 : (⟨S100000x1, .f32⟩ : BufTy).Contents (Elt F) → (⟨S100000x64, .f32⟩ : BufTy).Contents (Elt F)),
    binary main_v67 main_v70 main_v71 (Host.divf : (⟨S100000x64, .f32⟩ : BufTy).Contents (Elt F) → (⟨S100000x64, .f32⟩ : BufTy).Contents (Elt F) → (⟨S100000x64, .f32⟩ : BufTy).Contents (Elt F)),
    binary main_v71 main_arg8 main_v72 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg9 main_v73 (broadcastInDim S1x40 ![1] bcast_S40_S1x40_1 : (⟨S40, .f32⟩ : BufTy).Contents (Elt F) → (⟨S1x40, .f32⟩ : BufTy).Contents (Elt F)),
    unary main_v73 main_v74 (broadcastInDim S100000x40 ![0, 1] bcast_S1x40_S100000x40_0_1 : (⟨S1x40, .f32⟩ : BufTy).Contents (Elt F) → (⟨S100000x40, .f32⟩ : BufTy).Contents (Elt F)),
    binary main_v72 main_v74 main_v75 (addf : (⟨S100000x40, .f32⟩ : BufTy).Contents (Elt F) → (⟨S100000x40, .f32⟩ : BufTy).Contents (Elt F) → (⟨S100000x40, .f32⟩ : BufTy).Contents (Elt F)),
    binary main_v53 main_arg10 main_v76 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    binary main_v75 main_v76 main_v77 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call5_cst) (constant S_ .f32 0xFF800000#32),
    TRef.binary (TRef.of (T := ⟨S100000x40, .f32⟩) main_v77) (TRef.of (T := ⟨S_, .f32⟩) main_call5_cst) (TRef.of (T := ⟨S100000, .f32⟩) main_call5_v0) (fun x v => Host.reduce FloatOps.maximumf x v reducesTo_S100000x40_S100000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S100000, .f32⟩) main_call5_v1) (broadcastInDim S100000 ![] bcast_S_S100000),
    TRef.binary (TRef.of (T := ⟨S100000, .f32⟩) main_call5_v1) (TRef.of (T := ⟨S100000, .f32⟩) main_call5_v0) (TRef.of (T := ⟨S100000, .f32⟩) main_call5_v2) maximumf,
    TRef.unary (TRef.of (T := ⟨S100000, .f32⟩) main_call5_v2) (TRef.of (T := ⟨S100000x1, .f32⟩) main_call5_v3) (broadcastInDim S100000x1 ![0] bcast_S100000_S100000x1_0),
    TRef.unary (TRef.of (T := ⟨S100000x1, .f32⟩) main_call5_v3) (TRef.of (T := ⟨S100000x40, .f32⟩) main_call5_v4) (broadcastInDim S100000x40 ![0, 1] bcast_S100000x1_S100000x40_0_1),
    TRef.binary (TRef.of (T := ⟨S100000x40, .f32⟩) main_v77) (TRef.of (T := ⟨S100000x40, .f32⟩) main_call5_v4) (TRef.of (T := ⟨S100000x40, .f32⟩) main_call5_v5) subf,
    TRef.unary (TRef.of (T := ⟨S100000x40, .f32⟩) main_call5_v5) (TRef.of (T := ⟨S100000x40, .f32⟩) main_call5_v6) Host.exp,
    TRef.nullary (TRef.of (T := ⟨S_, .f32⟩) main_call5_cst_1) (constant S_ .f32 0x00000000#32),
    TRef.binary (TRef.of (T := ⟨S100000x40, .f32⟩) main_call5_v6) (TRef.of (T := ⟨S_, .f32⟩) main_call5_cst_1) (TRef.of (T := ⟨S100000, .f32⟩) main_call5_v7) (fun x v => Host.reduceAdd x v reducesTo_S100000x40_S100000_d1 h_S_),
    TRef.unary (TRef.of (T := ⟨S100000, .f32⟩) main_call5_v7) (TRef.of (T := ⟨S100000x1, .f32⟩) main_call5_v8) (broadcastInDim S100000x1 ![0] bcast_S100000_S100000x1_0),
    TRef.unary (TRef.of (T := ⟨S100000x1, .f32⟩) main_call5_v8) (TRef.of (T := ⟨S100000x1, .f32⟩) main_call5_v9) Host.log,
    TRef.unary (TRef.of (T := ⟨S100000x1, .f32⟩) main_call5_v9) (TRef.of (T := ⟨S100000x40, .f32⟩) main_call5_v10) (broadcastInDim S100000x40 ![0, 1] bcast_S100000x1_S100000x40_0_1),
    TRef.binary (TRef.of (T := ⟨S100000x40, .f32⟩) main_call5_v5) (TRef.of (T := ⟨S100000x40, .f32⟩) main_call5_v10) (TRef.of (T := ⟨S100000x40, .f32⟩) main_v78) subf ]

/-- After the third stretch: the log-softmax of the output layer of the second hidden layer's rows and of their
    neighbours' mean. -/
theorem L2_v78 (W : Valuation τ sig (Elt F)) :
    after (opsL2 (F := F)) W (Proc.devRef .tc main_v78)
      = Cert.Sage.logSoftmaxHost (Cert.Sage.logitsHost (Cert.Sage.meanDiv (W (Proc.devRef .tc main_v53)) (W (Proc.devRef .tc main_v1)) (W (Proc.devRef .tc main_v3)))
          (W (Proc.devRef .tc main_v53)) (W (Proc.devRef .tc main_arg8)) (W (Proc.devRef .tc main_arg9)) (W (Proc.devRef .tc main_arg10))) := by
  after_results_simp
  simp only [ofBuf_toBuf]
  rfl

/-- The reference's operations are the three stretches in a row. -/
theorem ops_split : Cert.ReferenceIdeal.ValueP.ops (F := F) = opsL0 ++ (opsL1 ++ opsL2) := rfl

/-- The fold of the reference's operations over the launch contents, read at the result buffer. -/
theorem result_eq (m : (ℓ : Loc nD τ sig) → Buf (Elt F) ℓ) (c : Dev nD) :
    after (Cert.ReferenceIdeal.ValueP.ops (F := F)) (launchContents m c) (Proc.devRef .tc main_v78)
      = Cert.Sage.refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [ops_split, StableHlo.after_append, StableHlo.after_append]
  rw [L2_v78]
  rw [L1_v53, L1_main_v1, L1_main_v3, L1_main_arg8, L1_main_arg9, L1_main_arg10]
  rw [L0_v28, L0_v1, L0_v3, L0_main_arg5, L0_main_arg6, L0_main_arg7, L0_main_arg8, L0_main_arg9, L0_main_arg10]
  unfold Cert.Sage.refOut Cert.Sage.refHidden2 Cert.Sage.refHidden1
  rfl

end Cert.ReferenceIdeal.Result

end
-- ==== Proof.RefLayers.lean ====
/-
  The reference's whole-array spelling of a layer, read entry by entry: it is the layer function of SageLayer.lean; and
  the two spellings of the neighbours' mean agree.
-/
import proofs.«102613_j79714593014136_1_alg».proof.Proof.SageHost
import Idealize.ShloMosaic.Lib.Pipeline.Value
import Idealize.ShloMosaic.Lib.ValueIdx
import Idealize.ShloMosaic.PureOps.Ideal.Laws

noncomputable section

namespace Cert.Sage

open Cert.ReferenceIdeal Cert.ReferenceIdeal.Facts₀ Cert.ReferenceIdeal.Facts Idealize.ShloMosaic Idealize.ShloMosaic.ValueIdx

/-! ## The matrix product of a node-feature array with a square weight matrix, at an entry -/

/-- The left operand's row coordinate is the output's row. -/
theorem dotSq_lhs_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl

/-- The left operand's column coordinate is the summation index. -/
theorem dotSq_lhs_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q

/-- The right operand's row coordinate is the summation index. -/
theorem dotSq_rhs_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q

/-- The right operand's column coordinate is the output's column. -/
theorem dotSq_rhs_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- Entry (r, q) of the product of a [100000, 64] array with a [64, 64] matrix is the sum over the 64 features of the
    products of row r's entries with column q's. -/
theorem dotSq_apply (y : (⟨S100000x64, .f32⟩ : BufTy).Contents (Elt Ideal)) (w : (⟨S64x64, .f32⟩ : BufTy).Contents (Elt Ideal))
    (r : Fin 100000) (q : Fin 64) :
    Host.dotGeneral (F := Ideal) (φ₁ := .f32) (φ₂ := .f32) dot_S100000x64_S64x64_S100000x64_1_0_0_1_n_n none y w (ix2 r q)
      = ∑ k : Fin 64, y (ix2 r k) * w (ix2 k q) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 r q) ((ValueIdx.contrEquiv1 dot_S100000x64_S64x64_S100000x64_1_0_0_1_n_n 64 rfl rfl).symm k) = ix2 r k := funext fun a => Fin.ext (by
    match a with
    | ⟨0, _⟩ => exact dotSq_lhs_0 _ _
    | ⟨1, _⟩ => exact (dotSq_lhs_1 _ _).trans hk)
  have er : dot_S100000x64_S64x64_S100000x64_1_0_0_1_n_n.rhsIdx (ix2 r q) ((ValueIdx.contrEquiv1 dot_S100000x64_S64x64_S100000x64_1_0_0_1_n_n 64 rfl rfl).symm k) = ix2 k q := funext fun a => Fin.ext (by
    match a with
    | ⟨0, _⟩ => exact (dotSq_rhs_0 _ _).trans hk
    | ⟨1, _⟩ => exact dotSq_rhs_1 _ _)
  rw [el, er]

/-- The host's quotient of two arrays reads, at an entry, the quotient of the entries. -/
theorem hostDivf_at {s : Shape} {φ : FTy} (x y : FVec Ideal s φ) (i : s.Idx) :
    Host.divf x y i = Ideal.div (x i) (y i) := rfl

/-! ## The broadcasts, at an entry -/

/-- The bias laid along the rows reads, at (r, q), the bias at q. -/
theorem biasRows_apply {F : FTy → Type} [FloatOps F] (b : (⟨S64, .f32⟩ : BufTy).Contents (Elt F)) (r : Fin 100000) (q : Fin 64) :
    broadcastInDim S100000x64 ![0, 1] bcast_S1x64_S100000x64_0_1 (broadcastInDim S1x64 ![1] bcast_S64_S1x64_1 b) (ix2 r q)
      = b (ix1 q) := by
  generalize hy : broadcastInDim S1x64 ![1] bcast_S64_S1x64_1 b = y
  rw [broadcastInDim_apply _ bcast_S1x64_S100000x64_0_1 y (ix2 r q) (ix2 (⟨0, Nat.one_pos⟩ : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])]
  subst hy
  exact broadcastInDim_apply _ bcast_S64_S1x64_1 b (ix2 (⟨0, Nat.one_pos⟩ : Fin 1) q) (ix1 q) (fun a => match a with
    | ⟨0, _⟩ => by show q.val = if (64 : Nat) = 1 then 0 else q.val; rw [if_neg (by decide)])

/-- A per-node number laid along every column reads, at an entry, the number of the entry's row. -/
theorem alongRows_apply {F : FTy → Type} [FloatOps F] (x : (⟨S100000, .f32⟩ : BufTy).Contents (Elt F)) (i : S100000x64.Idx) :
    alongRows (F := F) x i = x (ix1 (i 0)) := by
  unfold alongRows
  generalize hy : broadcastInDim S100000x1 ![0] bcast_S100000_S100000x1_0 x = y
  rw [broadcastInDim_apply _ bcast_S100000x1_S100000x64_0_1 y i (ix2 (i 0) (⟨0, Nat.one_pos⟩ : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]
  subst hy
  exact broadcastInDim_apply _ bcast_S100000_S100000x1_0 x (ix2 (i 0) (⟨0, Nat.one_pos⟩ : Fin 1)) (ix1 (i 0)) (fun a => match a with
    | ⟨0, _⟩ => by show (i 0).val = if (100000 : Nat) = 1 then 0 else (i 0).val; rw [if_neg (by decide)])

/-- The constant zero laid over a node-feature array reads zero everywhere. -/
theorem zeroRows_apply (i : S100000x64.Idx) :
    broadcastInDim S100000x64 ![] bcast_S_S100000x64 (constant (F := Ideal) S_ .f32 0x00000000#32) i = 0 := by
  rw [broadcastInDim_apply _ bcast_S_S100000x64 (constant (F := Ideal) S_ .f32 0x00000000#32) i (fun a => a.elim0) (fun a => a.elim0)]
  rw [constant_apply]
  exact Ideal.ofBits_zero_f32

/-- The constant one laid over the nodes reads one everywhere. -/
theorem oneNodes_apply (j : S100000.Idx) :
    broadcastInDim S100000 ![] bcast_S_S100000 (constant (F := Ideal) S_ .f32 0x3F800000#32) j = 1 := by
  rw [broadcastInDim_apply _ bcast_S_S100000 (constant (F := Ideal) S_ .f32 0x3F800000#32) j (fun a => a.elim0) (fun a => a.elim0)]
  rw [constant_apply]
  exact ofBits_one

/-! ## The two statements -/

/-- A hidden layer on whole arrays is the layer function: at node `r`, column `q`, the two matrix products are the
    sums over the 64 features, the bias along the rows is `b q`, and the positive part is the maximum with zero. -/
theorem hiddenHost_eq (a h : (⟨S100000x64, .f32⟩ : BufTy).Contents (Elt Ideal)) (wl : (⟨S64x64, .f32⟩ : BufTy).Contents (Elt Ideal)) (b : (⟨S64, .f32⟩ : BufTy).Contents (Elt Ideal)) (wr : (⟨S64x64, .f32⟩ : BufTy).Contents (Elt Ideal)) :
    hiddenHost (F := Ideal) a h wl b wr = reluLayer a h wl wr (fun q : Fin 64 => b (ix1 q)) := by
  funext i
  obtain ⟨r, q, rfl⟩ : ∃ (r : Fin 100000) (q : Fin 64), i = ix2 r q := ⟨i 0, i 1, eq_ix2 i⟩
  unfold hiddenHost reluLayer lin
  rw [maximumf_apply, addf_apply, addf_apply, zeroRows_apply, dotSq_apply, dotSq_apply, biasRows_apply]

/-- The sum times the reciprocal of the clipped degree is the sum divided by it: the clipped degree is a maximum with
    one, so it is never zero, and off zero the quotient is the product with the inverse. -/
theorem meanMul_eq_meanDiv (h : (⟨S100000x64, .f32⟩ : BufTy).Contents (Elt Ideal)) (s d : (⟨S1600000, .i32⟩ : BufTy).Contents (Elt Ideal)) :
    meanMul (F := Ideal) h s d = meanDiv (F := Ideal) h s d := by
  funext i
  unfold meanMul meanDiv degClipped
  generalize nbrSum (F := Ideal) h s d = n
  generalize degree (F := Ideal) d = g
  rw [mulf_apply, alongRows_apply, hostDivf_at, hostDivf_at, alongRows_apply, maximumf_apply, oneNodes_apply]
  exact mul_div_one _ _ (max_one_ne_zero _)

end Cert.Sage

end
-- ==== Proof.RefOutLayer.lean ====
/-
  The reference's whole-array spelling of the output layer (logits, then the row-wise log-softmax), read entry by
  entry: it is the output-layer function of SageLayer.lean.
-/
import proofs.«102613_j79714593014136_1_alg».proof.Proof.SageHost
import Idealize.ShloMosaic.Lib.Pipeline.Value
import Idealize.ShloMosaic.Lib.ValueIdx
import Idealize.ShloMosaic.PureOps.Ideal.Laws

noncomputable section

open scoped BigOperators

namespace Cert.Sage

open Cert.ReferenceIdeal Cert.ReferenceIdeal.Facts₀ Cert.ReferenceIdeal.Facts Idealize.ShloMosaic Idealize.ShloMosaic.ValueIdx

/-! ## The matrix product at an entry -/

/-- The left operand's index for output (i₀, i₁) and shared coordinate k has row i₀ … -/
theorem dot40_lhs0 (i : S100000x40.Idx) (c : dot_S100000x64_S64x40_S100000x40_1_0_0_1_n_n.contr.Idx) :
    (dot_S100000x64_S64x40_S100000x40_1_0_0_1_n_n.lhsIdx i c 0).val = (i 0).val := by
  unfold DotDims.lhsIdx
  rw [dif_neg (show ¬(0 : Fin S100000x64.rank) ∈ dot_S100000x64_S64x40_S100000x40_1_0_0_1_n_n.lhsBatch by decide), dif_pos (show (0 : Fin S100000x64.rank) ∈ dot_S100000x64_S64x40_S100000x40_1_0_0_1_n_n.lhsNonContracting by decide)]
  rfl
/-- … and column k. -/
theorem dot40_lhs1 (i : S100000x40.Idx) (c : dot_S100000x64_S64x40_S100000x40_1_0_0_1_n_n.contr.Idx) :
    (dot_S100000x64_S64x40_S100000x40_1_0_0_1_n_n.lhsIdx i c 1).val = (c ⟨0, by decide⟩).val :=
  dot_S100000x64_S64x40_S100000x40_1_0_0_1_n_n.lhsIdx_val_of_single rfl i c
/-- The right operand's index has row k … -/
theorem dot40_rhs0 (i : S100000x40.Idx) (c : dot_S100000x64_S64x40_S100000x40_1_0_0_1_n_n.contr.Idx) :
    (dot_S100000x64_S64x40_S100000x40_1_0_0_1_n_n.rhsIdx i c 0).val = (c ⟨0, by decide⟩).val :=
  dot_S100000x64_S64x40_S100000x40_1_0_0_1_n_n.rhsIdx_val_of_single rfl i c
/-- … and column i₁. -/
theorem dot40_rhs1 (i : S100000x40.Idx) (c : dot_S100000x64_S64x40_S100000x40_1_0_0_1_n_n.contr.Idx) :
    (dot_S100000x64_S64x40_S100000x40_1_0_0_1_n_n.rhsIdx i c 1).val = (i 1).val := by
  unfold DotDims.rhsIdx
  rw [dif_neg (show ¬(1 : Fin S64x40.rank) ∈ dot_S100000x64_S64x40_S100000x40_1_0_0_1_n_n.rhsBatch by decide), dif_pos (show (1 : Fin S64x40.rank) ∈ dot_S100000x64_S64x40_S100000x40_1_0_0_1_n_n.rhsNonContracting by decide)]
  rfl

/-- Entry (r, q) of a [100000, 64] array times a [64, 40] matrix: the sum over the 64 shared coordinates. -/
theorem dot40_apply (x : (⟨S100000x64, .f32⟩ : BufTy).Contents (Elt Ideal)) (w : (⟨S64x40, .f32⟩ : BufTy).Contents (Elt Ideal))
    (r : Fin 100000) (q : Fin 40) :
    Host.dotGeneral (F := Ideal) (φ₁ := .f32) (φ₂ := .f32) dot_S100000x64_S64x40_S100000x40_1_0_0_1_n_n none x w (ix2 r q) = ∑ k : Fin 64, x (ix2 r k) * w (ix2 k q) := by
  simp only [Host.dotGeneral]
  rw [Ideal.dotGeneral_apply, ← Equiv.sum_comp (ValueIdx.contrEquiv1 dot_S100000x64_S64x40_S100000x40_1_0_0_1_n_n 64 rfl rfl).symm]
  refine Finset.sum_congr rfl fun k _ => ?_
  have hk := ValueIdx.contrEquiv1_symm_val dot_S100000x64_S64x40_S100000x40_1_0_0_1_n_n 64 rfl rfl k
  have el : dot_S100000x64_S64x40_S100000x40_1_0_0_1_n_n.lhsIdx (ix2 r q) ((ValueIdx.contrEquiv1 dot_S100000x64_S64x40_S100000x40_1_0_0_1_n_n 64 rfl rfl).symm k) = ix2 r k := funext fun a => Fin.ext (by
    match a with
    | ⟨0, _⟩ => exact dot40_lhs0 _ _
    | ⟨1, _⟩ => exact (dot40_lhs1 _ _).trans hk)
  have er : dot_S100000x64_S64x40_S100000x40_1_0_0_1_n_n.rhsIdx (ix2 r q) ((ValueIdx.contrEquiv1 dot_S100000x64_S64x40_S100000x40_1_0_0_1_n_n 64 rfl rfl).symm k) = ix2 k q := funext fun a => Fin.ext (by
    match a with
    | ⟨0, _⟩ => exact (dot40_rhs0 _ _).trans hk
    | ⟨1, _⟩ => exact dot40_rhs1 _ _)
  rw [el, er]

/-! ## The bias along the rows -/

/-- The bias laid along every row, at (r, q), is its entry q. -/
theorem biasRows40_apply (b : (⟨S40, .f32⟩ : BufTy).Contents (Elt Ideal)) (r : Fin 100000) (q : Fin 40) :
    broadcastInDim S100000x40 ![0, 1] bcast_S1x40_S100000x40_0_1 (broadcastInDim S1x40 ![1] bcast_S40_S1x40_1 b) (ix2 r q) = b (ix1 q) := by
  generalize hy : broadcastInDim S1x40 ![1] bcast_S40_S1x40_1 b = y
  rw [broadcastInDim_apply _ bcast_S1x40_S100000x40_0_1 y (ix2 r q) (ix2 (0 : Fin 1) q) (fun a => match a with
    | ⟨0, _⟩ => by show 0 = if (1 : Nat) = 1 then 0 else r.val; rw [if_pos rfl]
    | ⟨1, _⟩ => by show q.val = if (40 : Nat) = 1 then 0 else q.val; rw [if_neg (by decide)])]
  subst hy
  exact broadcastInDim_apply _ bcast_S40_S1x40_1 b (ix2 (0 : Fin 1) q) (ix1 q) (fun a => match a with
    | ⟨0, _⟩ => by show q.val = if (40 : Nat) = 1 then 0 else q.val; rw [if_neg (by decide)])

/-- Entry (r, q) of the logits: the two sums and the bias. -/
theorem logitsHost_apply (a h : (⟨S100000x64, .f32⟩ : BufTy).Contents (Elt Ideal)) (wl : (⟨S64x40, .f32⟩ : BufTy).Contents (Elt Ideal)) (b : (⟨S40, .f32⟩ : BufTy).Contents (Elt Ideal)) (wr : (⟨S64x40, .f32⟩ : BufTy).Contents (Elt Ideal))
    (r : Fin 100000) (q : Fin 40) :
    logitsHost (F := Ideal) a h wl b wr (ix2 r q) = lin a h wl wr (fun q : Fin 40 => b (ix1 q)) r q := by
  unfold logitsHost lin
  rw [addf_apply, addf_apply, dot40_apply, dot40_apply, biasRows40_apply]

/-! ## A per-row number laid along the 40 columns -/

/-- A column of per-row numbers laid along the 40 columns, at (r, q), is the number of row r. -/
theorem alongCols_apply (y : (⟨S100000x1, .f32⟩ : BufTy).Contents (Elt Ideal)) (r : Fin 100000) (q : Fin 40) :
    broadcastInDim S100000x40 ![0, 1] bcast_S100000x1_S100000x40_0_1 y (ix2 r q) = y (ix2 r (0 : Fin 1)) :=
  broadcastInDim_apply _ bcast_S100000x1_S100000x40_0_1 y (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- Per-row numbers stood up as a column, at (r, 0), are the number of row r. -/
theorem asColumn_apply (y : (⟨S100000, .f32⟩ : BufTy).Contents (Elt Ideal)) (r : Fin 100000) :
    broadcastInDim S100000x1 ![0] bcast_S100000_S100000x1_0 y (ix2 r (0 : Fin 1)) = y (ix1 r) :=
  broadcastInDim_apply _ bcast_S100000_S100000x1_0 y (ix2 r (0 : Fin 1)) (ix1 r) (fun a => match a with
    | ⟨0, _⟩ => by show r.val = if (100000 : Nat) = 1 then 0 else r.val; rw [if_neg (by decide)])

/-! ## Reductions along a row -/

/-- Dropping the column axis of the [100000, 40] shape leaves the rows. -/
theorem reducesCols : S100000x40.Reduces [1] S100000 := by decide

/-- Row r with column k put back is the entry (r, k). -/
theorem lift_row (r : Fin 100000) (k : Fin (S100000x40.size 1)) :
    reducesCols.lift (ix1 r) k = ix2 r (⟨k.val, k.isLt⟩ : Fin 40) := by
  funext c; apply Fin.ext
  match c with
  | ⟨0, _⟩ => rfl
  | ⟨1, _⟩ => rfl

/-- The maximum folded from minus infinity along row r. -/
theorem rowMax_apply (z : (⟨S100000x40, .f32⟩ : BufTy).Contents (Elt Ideal)) (r : Fin 100000) :
    Host.reduce (FloatOps.maximumf (F := Ideal) (φ := .f32)) z (constant (F := Ideal) S_ .f32 0xFF800000#32) reducesTo_S100000x40_S100000_d1 h_S_ (ix1 r)
      = (Finset.univ : Finset (Fin 40)).fold max negInf (fun q' : Fin 40 => z (ix2 r q')) := by
  refine (Host.reduce_eq_fold_single (FloatOps.maximumf (F := Ideal) (φ := .f32)) z _ reducesTo_S100000x40_S100000_d1 reducesCols h_S_ (ix1 r)).trans ?_
  have hf : (z ∘ reducesCols.lift (ix1 r)) = fun k : Fin 40 => z (ix2 r k) := funext fun k => congrArg z (lift_row r k)
  exact congrArg (fun f => Finset.fold max negInf f (Finset.univ : Finset (Fin 40))) hf

/-- The sum from zero along row r. -/
theorem rowSum_apply (y : (⟨S100000x40, .f32⟩ : BufTy).Contents (Elt Ideal)) (r : Fin 100000) :
    Host.reduceAdd (F := Ideal) (φ := .f32) y (constant (F := Ideal) S_ .f32 0x00000000#32) reducesTo_S100000x40_S100000_d1 h_S_ (ix1 r)
      = ∑ k : Fin 40, y (ix2 r k) := by
  simp only [Host.reduceAdd, Ideal.hostReduceAdd_def]
  rw [Ideal.hostReduceAdd_single reducesTo_S100000x40_S100000_d1 reducesCols, constant_apply, Ideal.ofBits_zero_f32, zero_add]
  exact Finset.sum_congr rfl fun k _ => congrArg y (lift_row r k)

/-! ## The shifted row and the log-softmax at an entry -/

/-- The host's logarithm at an index. -/
theorem hostLog_apply {s : Shape} (x : FVec Ideal s .f32) (i : s.Idx) : Host.log x i = Ideal.log (x i) := rfl
/-- The host's exponential at an index. -/
theorem hostExp_apply {s : Shape} (x : FVec Ideal s .f32) (i : s.Idx) : Host.exp x i = Ideal.exp (x i) := rfl

/-- Entry (r, q) of an array less its rows' maxima is the shifted row r at q. -/
theorem shiftHost_apply (z : (⟨S100000x40, .f32⟩ : BufTy).Contents (Elt Ideal)) (r : Fin 100000) (q : Fin 40) :
    shiftHost (F := Ideal) z (ix2 r q) = shift (fun q' : Fin 40 => z (ix2 r q')) q := by
  unfold shiftHost shift
  rw [subf_apply, alongCols_apply, asColumn_apply, maximumf_apply, rowMax_apply,
    broadcastInDim_apply _ bcast_S_S100000 _ (ix1 r) ix0 (fun a => a.elim0), constant_apply]
  rfl

/-- Entry (r, q) of the log-softmax of an array is the log-softmax of its row r at q. -/
theorem logSoftmaxHost_apply (z : (⟨S100000x40, .f32⟩ : BufTy).Contents (Elt Ideal)) (r : Fin 100000) (q : Fin 40) :
    logSoftmaxHost (F := Ideal) z (ix2 r q) = logSoftmaxRow (fun q' : Fin 40 => z (ix2 r q')) q := by
  unfold logSoftmaxHost logSoftmaxRow
  rw [subf_apply, shiftHost_apply, alongCols_apply, hostLog_apply, asColumn_apply, rowSum_apply]
  refine congrArg (fun s => _ - Ideal.log s) (Finset.sum_congr rfl fun k _ => ?_)
  rw [hostExp_apply, shiftHost_apply]

/-- The output layer on whole arrays is the layer function: the logits as in a hidden layer, then on each row the
    maximum (a fold of `max` from minus infinity over the 40 columns), the shifted row, the sum of its exponentials,
    the logarithm. -/
theorem logSoftmaxHost_logits_eq (a h : (⟨S100000x64, .f32⟩ : BufTy).Contents (Elt Ideal)) (wl : (⟨S64x40, .f32⟩ : BufTy).Contents (Elt Ideal)) (b : (⟨S40, .f32⟩ : BufTy).Contents (Elt Ideal)) (wr : (⟨S64x40, .f32⟩ : BufTy).Contents (Elt Ideal)) :
    logSoftmaxHost (F := Ideal) (logitsHost (F := Ideal) a h wl b wr) = logSoftmaxLayer a h wl wr (fun q : Fin 40 => b (ix1 q)) := by
  funext i
  obtain ⟨r, q, rfl⟩ : ∃ (r : Fin 100000) (q : Fin 40), i = ix2 r q := ⟨i 0, i 1, eq_ix2 i⟩
  have hrow : (fun q' : Fin 40 => logitsHost (F := Ideal) a h wl b wr (ix2 r q')) = lin a h wl wr (fun q : Fin 40 => b (ix1 q)) r :=
    funext fun q' => logitsHost_apply a h wl b wr r q'
  rw [logSoftmaxHost_apply, hrow]
  rfl

end Cert.Sage

end
-- ==== Proof.SageAgree.lean ====
/-
  The two spellings of the network agree over the extended reals, layer by layer: the mean as a product with the
  reciprocal is the mean as a quotient, and the reference's whole-array layer is the layer function; so each hidden
  layer of the kernel program is the reference's, and with equal hidden layers so is the result.
-/
import proofs.«102613_j79714593014136_1_alg».proof.Proof.SageNet
import proofs.«102613_j79714593014136_1_alg».proof.Proof.RefLayers
import proofs.«102613_j79714593014136_1_alg».proof.Proof.RefOutLayer

noncomputable section

namespace Cert.Sage

open Cert.ReferenceIdeal Cert.ReferenceIdeal.Facts₀ Cert.ReferenceIdeal.Facts Idealize.ShloMosaic Idealize.ShloMosaic.ValueIdx

/-- The first hidden layers agree. -/
theorem kerHidden1_eq (x : (⟨S100000x64, .f32⟩ : BufTy).Contents (Elt Ideal)) (e : (⟨S2x1600000, .i32⟩ : BufTy).Contents (Elt Ideal))
    (wl0 : (⟨S64x64, .f32⟩ : BufTy).Contents (Elt Ideal)) (b0 : (⟨S64, .f32⟩ : BufTy).Contents (Elt Ideal)) (wr0 : (⟨S64x64, .f32⟩ : BufTy).Contents (Elt Ideal)) :
    kerHidden1 x e wl0 b0 wr0 = refHidden1 (F := Ideal) x e wl0 b0 wr0 := by
  unfold kerHidden1 refHidden1
  rw [meanMul_eq_meanDiv, hiddenHost_eq]

/-- The second hidden layers agree. -/
theorem kerHidden2_eq (x : (⟨S100000x64, .f32⟩ : BufTy).Contents (Elt Ideal)) (e : (⟨S2x1600000, .i32⟩ : BufTy).Contents (Elt Ideal))
    (wl0 : (⟨S64x64, .f32⟩ : BufTy).Contents (Elt Ideal)) (b0 : (⟨S64, .f32⟩ : BufTy).Contents (Elt Ideal)) (wr0 : (⟨S64x64, .f32⟩ : BufTy).Contents (Elt Ideal))
    (wl1 : (⟨S64x64, .f32⟩ : BufTy).Contents (Elt Ideal)) (b1 : (⟨S64, .f32⟩ : BufTy).Contents (Elt Ideal)) (wr1 : (⟨S64x64, .f32⟩ : BufTy).Contents (Elt Ideal)) :
    kerHidden2 x e wl0 b0 wr0 wl1 b1 wr1 = refHidden2 (F := Ideal) x e wl0 b0 wr0 wl1 b1 wr1 := by
  unfold kerHidden2 refHidden2
  rw [kerHidden1_eq, meanMul_eq_meanDiv, hiddenHost_eq]

/-- The results agree. -/
theorem kerOut_eq (x : (⟨S100000x64, .f32⟩ : BufTy).Contents (Elt Ideal)) (e : (⟨S2x1600000, .i32⟩ : BufTy).Contents (Elt Ideal))
    (wl0 : (⟨S64x64, .f32⟩ : BufTy).Contents (Elt Ideal)) (b0 : (⟨S64, .f32⟩ : BufTy).Contents (Elt Ideal)) (wr0 : (⟨S64x64, .f32⟩ : BufTy).Contents (Elt Ideal))
    (wl1 : (⟨S64x64, .f32⟩ : BufTy).Contents (Elt Ideal)) (b1 : (⟨S64, .f32⟩ : BufTy).Contents (Elt Ideal)) (wr1 : (⟨S64x64, .f32⟩ : BufTy).Contents (Elt Ideal))
    (wl2 : (⟨S64x40, .f32⟩ : BufTy).Contents (Elt Ideal)) (b2 : (⟨S40, .f32⟩ : BufTy).Contents (Elt Ideal)) (wr2 : (⟨S64x40, .f32⟩ : BufTy).Contents (Elt Ideal)) :
    kerOut x e wl0 b0 wr0 wl1 b1 wr1 wl2 b2 wr2 = refOut (F := Ideal) x e wl0 b0 wr0 wl1 b1 wr1 wl2 b2 wr2 := by
  unfold kerOut refOut
  rw [kerHidden2_eq, meanMul_eq_meanDiv, logSoftmaxHost_logits_eq]

end Cert.Sage

end
-- ==== Proof.lean ====
/-
  A three-layer GraphSAGE network with mean aggregation, in two programs. The kernel program computes, per layer, the
  neighbours' sums with whole-array operations and the dense part (two matrix products, a bias, the activation) in a
  kernel region over blocks of 5000 rows; the reference computes every step with whole-array operations.

  The frames of the two kernel programs are the generated ones. The reference's frame is its run with the result
  dropped. The idealized kernel program is the kernel program's own text read over the extended reals, so the
  preservation claim is `True`.

  The value claim. Over the extended reals both programs compute, layer by layer, at node r and column q,
      act((Σ_k a[r,k]·Wl[k,q] + b[q]) + Σ_k h[r,k]·Wr[k,q])
  where a is the mean of the in-neighbours' rows of h, and act is the positive part in the two hidden layers and the
  row-wise log-softmax in the last. The kernel program writes the mean as the sum times the reciprocal of the degree
  clipped below at one, the reference as the sum divided by it; the divisor is a maximum with one, hence not zero, and
  off zero the quotient is the product with the inverse, so the two means are one array (no finiteness of the inputs
  is used). A kernel region computes the layer on blocks of 5000 rows, each output row depending only on the same row
  of a and of h, so the blocks tile the whole-array layer function; the reference's matrix products, broadcasts and
  row reductions, read entry by entry, are the same function.
-/
import proofs.«102613_j79714593014136_1_alg».proof.Defs
import proofs.«102613_j79714593014136_1_alg».proof.Proof.Gen.Kernel
import proofs.«102613_j79714593014136_1_alg».proof.Proof.Gen.Kernel.Frame
import proofs.«102613_j79714593014136_1_alg».proof.Proof.Gen.KernelIdeal
import proofs.«102613_j79714593014136_1_alg».proof.Proof.Gen.KernelIdeal.Frame
import proofs.«102613_j79714593014136_1_alg».proof.Proof.Gen.ReferenceIdeal
import proofs.«102613_j79714593014136_1_alg».proof.Proof.Gen.Pre_finite_inputs
import proofs.«102613_j79714593014136_1_alg».proof.Proof.KernelRunNamed
import proofs.«102613_j79714593014136_1_alg».proof.Proof.KernelValue
import proofs.«102613_j79714593014136_1_alg».proof.Proof.RefRun
import proofs.«102613_j79714593014136_1_alg».proof.Proof.RefValue
import proofs.«102613_j79714593014136_1_alg».proof.Proof.SageAgree
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the three layers of the arguments as their result: the kernel program's run read back
    through its regions, the reference's through its operations, and the two spellings of the network agree. -/
theorem algebraic : Cert.algebraic_KernelIdeal_ReferenceIdeal := by
  intro m ρ m' ρ' _ hagree
  refine ⟨fun c => Cert.Sage.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Result.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Result.result_eq m' c]
    obtain ⟨e0, e1, e2, e3, e4, e5, e6, e7, e8, e9, e10⟩ := hagree c
    rw [e0, e1, e2, e3, e4, e5, e6, e7, e8, e9, e10]
    exact (Cert.Sage.kerOut_eq _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
